-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S3200000 : Shape := ⟨1, ![3200000]⟩
abbrev S256x16 : Shape := ⟨2, ![256, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S16x40 .f32) (main_arg6 : FVec F S40 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x40 .f32 := Host.absf main_arg5
  let main_cst_6 : FVec F S_ .f32 := constant S_ .f32 0x7F800000#32
  let main_v20 : FVec F S16x40 .f32 := broadcastInDim S16x40 ![] bcast_S_S16x40 main_cst_6
  let main_v21 : IVec S16x40 1 := cmpf .olt main_v19 main_v20
  let main_c_7 : IVec S_ 1 := constantI S_ 1 1#1
  let main_v22 : IVec S_ 1 := (fun x v => Host.reduce IntOp.andi x v reducesTo_S16x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x256 .f32) (main_arg1 : IVec S2x3200000 32) (main_arg2 : FVec F S3200000 .f32) (main_arg3 : FVec F S256x16 .f32) (main_arg4 : FVec F S16 .f32) (main_arg5 : FVec F S16x40 .f32) (main_arg6 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S256x16 .f32 := Host.absf main_arg3
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x256 : Shape := ⟨2, ![100000, 256]⟩
abbrev S2x3200000 : Shape := ⟨2, ![2, 3200000]⟩
abbrev S3200000 : Shape := ⟨1, ![3200000]⟩
abbrev S256x16 : Shape := ⟨2, ![256, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x256 : Shape := ⟨2, ![2000, 256]⟩
abbrev S2000x16 : Shape := ⟨2, ![2000, 16]⟩
abbrev S3300000x16 : Shape := ⟨2, ![3300000, 16]⟩
abbrev S1x16 : Shape := ⟨2, ![1, 16]⟩
abbrev S100000x40 : Shape := ⟨2, ![100000, 40]⟩
abbrev S2000x40 : Shape := ⟨2, ![2000, 40]⟩
abbrev S3300000x40 : Shape := ⟨2, ![3300000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 86
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000, .f32⟩
  | .hbm, ⟨3, _⟩ => ⟨S256x16, .f32⟩
  | .hbm, ⟨4, _⟩ => ⟨S16, .f32⟩
  | .hbm, ⟨5, _⟩ => ⟨S16x40, .f32⟩
  | .hbm, ⟨6, _⟩ => ⟨S40, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x40, .f32⟩
  | .hbm, ⟨68, _⟩ => ⟨S3300000x1, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x40, .f32⟩
  | .hbm, ⟨78, _⟩ => ⟨S3300000x40, .f32⟩
  | .hbm, ⟨79, _⟩ => ⟨S3300000x40, .f32⟩
  | .hbm, ⟨80, _⟩ => ⟨S_, .f32⟩
  | .hbm, ⟨81, _⟩ => ⟨S100000x40, .f32⟩
  | .hbm, ⟨82, _⟩ => ⟨S3300000x1, .i32⟩
  | .hbm, ⟨83, _⟩ => ⟨S100000x40, .f32⟩
  | .hbm, ⟨84, _⟩ => ⟨S1x40, .f32⟩
  | .hbm, ⟨85, _⟩ => ⟨S100000x40, .f32⟩
  | .local _ .vmem, ⟨0, _⟩ => ⟨S2000x256, .f32⟩
  | .local _ .vmem, ⟨1, _⟩ => ⟨S2000x256, .f32⟩
  | .local _ .vmem, ⟨2, _⟩ => ⟨S256x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S1x16, .f32⟩
  | .local _ .vmem, ⟨8, _⟩ => ⟨S16x40, .f32⟩
  | .local _ .vmem, ⟨9, _⟩ => ⟨S2000x40, .f32⟩
  | .local _ .vmem, ⟨10, _⟩ => ⟨S2000x40, .f32⟩
  | .local _ .vmem, ⟨11, _⟩ => ⟨S2000x40, .f32⟩
  | .local _ .vmem, ⟨12, _⟩ => ⟨S2000x40, .f32⟩
  | .local _ .vmem, ⟨13, _⟩ => ⟨S1x40, .f32⟩
  | .local _ .vmem, ⟨14, _⟩ => ⟨S2000x40, .f32⟩
  | .local _ .vmem, ⟨15, _⟩ => ⟨S2000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x40_S16x40_0_0 : ∀ a, (![0, 0] : Fin 2 → Nat) a + S16x40.size a ≤ S16x40.size a
  h_S16x40 : 0 < S16x40.numel
  inb_S2000x40_S2000x40_0_0 : ∀ a, (![0, 0] : Fin 2 → Nat) a + S2000x40.size a ≤ S2000x40.size a
  h_S2000x40 : 0 < S2000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x256_S256x16_S2000x16_1_0_0_1_n_n_wf : DotDims.WF S2000x256 S256x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x40_S2000x40_1_0_0_1_n_n_wf : DotDims.WF S2000x16 S16x40 S2000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x40.size a ≤ S16x40.size a
  hwx1_2 : ∀ i : grid1.Coords, EltTy.bits .f32 = 32 ∨ (Rect.block (s := S16x40) S16x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x40.size a ≤ S100000x40.size a
  hwx1_3 : ∀ i : grid1.Coords, EltTy.bits .f32 = 32 ∨ (Rect.block (s := S100000x40) S2000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S100000x40.size a
  hwx2_0 : ∀ i : grid2.Coords, EltTy.bits .f32 = 32 ∨ (Rect.block (s := S100000x40) S2000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S100000x40.size a
  hwx2_2 : ∀ i : grid2.Coords, EltTy.bits .f32 = 32 ∨ (Rect.block (s := S100000x40) S2000x40.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x256_S256x16_S2000x16_1_0_0_1_n_n : DotDims S2000x256 S256x16 S2000x16 where
  lhsContracting := [1]
  rhsContracting := [0]
  lhsNonContracting := [0]
  rhsNonContracting := [1]
  lhsBatch := []
  rhsBatch := []
  wf := dot_S2000x256_S256x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x40_S2000x40_1_0_0_1_n_n : DotDims S2000x16 S16x40 S2000x40 where
  lhsContracting := [1]
  rhsContracting := [0]
  lhsNonContracting := [0]
  rhsNonContracting := [1]
  lhsBatch := []
  rhsBatch := []
  wf := dot_S2000x16_S16x40_S2000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S2000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S3200000 : Shape := ⟨1, ![3200000]⟩
abbrev S256x16 : Shape := ⟨2, ![256, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000, .f32⟩
  | .hbm, ⟨3, _⟩ => ⟨S256x16, .f32⟩
  | .hbm, ⟨4, _⟩ => ⟨S16, .f32⟩
  | .hbm, ⟨5, _⟩ => ⟨S16x40, .f32⟩
  | .hbm, ⟨6, _⟩ => ⟨S40, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x40, .f32⟩
  | .hbm, ⟨73, _⟩ => ⟨S3300000x1, .f32⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000x40, .f32⟩
  | .hbm, ⟨83, _⟩ => ⟨S3300000x40, .f32⟩
  | .hbm, ⟨84, _⟩ => ⟨S3300000x40, .f32⟩
  | .hbm, ⟨85, _⟩ => ⟨S_, .f32⟩
  | .hbm, ⟨86, _⟩ => ⟨S100000x40, .f32⟩
  | .hbm, ⟨87, _⟩ => ⟨S3300000x1, .i32⟩
  | .hbm, ⟨88, _⟩ => ⟨S100000x40, .f32⟩
  | .hbm, ⟨89, _⟩ => ⟨S1x40, .f32⟩
  | .hbm, ⟨90, _⟩ => ⟨S100000x40, .f32⟩
  | .hbm, ⟨91, _⟩ => ⟨S100000x40, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x40, .f32⟩
  | .hbm, ⟨99, _⟩ => ⟨S100000x40, .f32⟩
  | .hbm, ⟨100, _⟩ => ⟨S100000x40, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x40, .f32⟩
  | .hbm, ⟨106, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x16_S100000x16_1_0_0_1_n_n_wf : DotDims.WF S100000x256 S256x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.RefStages.lean ====
/-
  The reference program's run, read stage by stage. Its @main is one line of a hundred host operations; cut into four
  stretches — the self-looped edge lists and the normalisation; the first layer (the features times the first weight
  matrix, propagated, the bias added, clamped at zero, times the second weight matrix); the second layer's propagation
  and bias; the row-wise log-softmax — each stretch, run from ANY contents of the buffers at its entry, leaves in its
  last buffer the stage function of that name of what the entry contents hold at the buffers it reads, and keeps every
  buffer it does not write. Chained from the launch contents, the result buffer ends at the last stage of the argument
  arrays, and the arguments end as launched.
-/
import proofs.«136380_j24721831756229_1_alg».proof.Proof.RefRead
import Idealize.ShloMosaic.Lib.StableHlo.Run
import Idealize.ShloMosaic.Lib.Pipeline.Frame

set_option maxRecDepth 16384

noncomputable section

namespace Cert.ReferenceIdeal.Stages

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- No operation of the named stretch writes the buffer: the fold keeps it. -/
macro "kept_by" ops:ident : tactic => `(tactic| (
  refine StableHlo.after_of_forall_not_mem _ _ (List.forall_iff_forall_mem.mp ?_)
  simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- The edge lists with self loops and the normalisation: operations 1 to 42. -/
abbrev normOps : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v8 main_v23 (mulf : (⟨S3300000, .f32⟩ : BufTy).Contents (Elt F) → (⟨S3300000, .f32⟩ : BufTy).Contents (Elt F) → (⟨S3300000, .f32⟩ : BufTy).Contents (Elt F)),
    nullary main_c_4 (constantI S_ 32 0#32),
    unary main_c_4 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v15 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)) ]

/-- The first layer up to its product with the second weight matrix: operations 43 to 66. -/
abbrev layer1Ops : List (HloOp τ sig (Elt F)) :=
  [ binary main_arg0 main_arg3 main_v32 ((fun l r => Host.dotGeneral dot_S100000x256_S256x16_S100000x16_1_0_0_1_n_n none l r) : (⟨S100000x256, .f32⟩ : BufTy).Contents (Elt F) → (⟨S256x16, .f32⟩ : BufTy).Contents (Elt F) → (⟨S100000x16, .f32⟩ : BufTy).Contents (Elt F)),
    unary main_v31 main_v33 (broadcastInDim S3300000x1 ![0] bcast_S3300000_S3300000x1_0 : (⟨S3300000, .f32⟩ : BufTy).Contents (Elt F) → (⟨S3300000x1, .f32⟩ : BufTy).Contents (Elt F)),
    nullary main_c_6 (constantI S_ 32 0#32),
    unary main_c_6 main_v34 (broadcastInDim S3300000 ![] bcast_S_S3300000 : (⟨S_, .i32⟩ : BufTy).Contents (Elt F) → (⟨S3300000, .i32⟩ : BufTy).Contents (Elt F)),
    binary main_v3 main_v34 main_v35 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v36 (broadcastInDim S3300000 ![] bcast_S_S3300000 : (⟨S_, .i32⟩ : BufTy).Contents (Elt F) → (⟨S3300000, .i32⟩ : BufTy).Contents (Elt F)),
    binary main_v3 main_v36 main_v37 (addi : (⟨S3300000, .i32⟩ : BufTy).Contents (Elt F) → (⟨S3300000, .i32⟩ : BufTy).Contents (Elt F) → (⟨S3300000, .i32⟩ : BufTy).Contents (Elt F)),
    ternary main_v35 main_v37 main_v3 main_v38 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v38 main_v39 (broadcastInDim S3300000x1 ![0] bcast_S3300000_S3300000x1_0 : (⟨S3300000, .i32⟩ : BufTy).Contents (Elt F) → (⟨S3300000x1, .i32⟩ : BufTy).Contents (Elt F)),
    binary main_v32 main_v39 main_v40 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v33 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v41 main_v40 main_v42 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v43 (broadcastInDim S100000x16 ![] bcast_S_S100000x16 : (⟨S_, .f32⟩ : BufTy).Contents (Elt F) → (⟨S100000x16, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg4 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf,
    binary main_v49 main_arg5 main_v50 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)) ]

/-- The second layer's propagation and bias: operations 67 to 85. -/
abbrev layer2Ops : List (HloOp τ sig (Elt F)) :=
  [ unary main_v31 main_v51 (broadcastInDim S3300000x1 ![0] bcast_S3300000_S3300000x1_0 : (⟨S3300000, .f32⟩ : BufTy).Contents (Elt F) → (⟨S3300000x1, .f32⟩ : BufTy).Contents (Elt F)),
    nullary main_c_9 (constantI S_ 32 0#32),
    unary main_c_9 main_v52 (broadcastInDim S3300000 ![] bcast_S_S3300000 : (⟨S_, .i32⟩ : BufTy).Contents (Elt F) → (⟨S3300000, .i32⟩ : BufTy).Contents (Elt F)),
    binary main_v3 main_v52 main_v53 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v54 (broadcastInDim S3300000 ![] bcast_S_S3300000 : (⟨S_, .i32⟩ : BufTy).Contents (Elt F) → (⟨S3300000, .i32⟩ : BufTy).Contents (Elt F)),
    binary main_v3 main_v54 main_v55 (addi : (⟨S3300000, .i32⟩ : BufTy).Contents (Elt F) → (⟨S3300000, .i32⟩ : BufTy).Contents (Elt F) → (⟨S3300000, .i32⟩ : BufTy).Contents (Elt F)),
    ternary main_v53 main_v55 main_v3 main_v56 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v56 main_v57 (broadcastInDim S3300000x1 ![0] bcast_S3300000_S3300000x1_0 : (⟨S3300000, .i32⟩ : BufTy).Contents (Elt F) → (⟨S3300000x1, .i32⟩ : BufTy).Contents (Elt F)),
    binary main_v50 main_v57 main_v58 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v51 main_v59 (broadcastInDim S3300000x40 ![0, 1] bcast_S3300000x1_S3300000x40_0_1 : (⟨S3300000x1, .f32⟩ : BufTy).Contents (Elt F) → (⟨S3300000x40, .f32⟩ : BufTy).Contents (Elt F)),
    binary main_v59 main_v58 main_v60 (mulf : (⟨S3300000x40, .f32⟩ : BufTy).Contents (Elt F) → (⟨S3300000x40, .f32⟩ : BufTy).Contents (Elt F) → (⟨S3300000x40, .f32⟩ : BufTy).Contents (Elt F)),
    nullary main_cst_11 (constant S_ .f32 0x00000000#32),
    unary main_cst_11 main_v61 (broadcastInDim S100000x40 ![] bcast_S_S100000x40 : (⟨S_, .f32⟩ : BufTy).Contents (Elt F) → (⟨S100000x40, .f32⟩ : BufTy).Contents (Elt F)),
    unary main_v6 main_v62 (broadcastInDim S3300000x1 ![0] bcast_S3300000_S3300000x1_0 : (⟨S3300000, .i32⟩ : BufTy).Contents (Elt F) → (⟨S3300000x1, .i32⟩ : BufTy).Contents (Elt F)),
    ternary main_v61 main_v62 main_v60 main_v63 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg6 main_v64 (broadcastInDim S1x40 ![1] bcast_S40_S1x40_1 : (⟨S40, .f32⟩ : BufTy).Contents (Elt F) → (⟨S1x40, .f32⟩ : BufTy).Contents (Elt F)),
    unary main_v64 main_v65 (broadcastInDim S100000x40 ![0, 1] bcast_S1x40_S100000x40_0_1 : (⟨S1x40, .f32⟩ : BufTy).Contents (Elt F) → (⟨S100000x40, .f32⟩ : BufTy).Contents (Elt F)),
    binary main_v63 main_v65 main_v66 (addf : (⟨S100000x40, .f32⟩ : BufTy).Contents (Elt F) → (⟨S100000x40, .f32⟩ : BufTy).Contents (Elt F) → (⟨S100000x40, .f32⟩ : BufTy).Contents (Elt F)) ]

/-- The row-wise log-softmax: operations 86 to 100. -/
abbrev softmaxOps : List (HloOp τ sig (Elt F)) :=
  [ TRef.nullary (TRef.of (T := ⟨S_, .f32⟩) main_call2_cst) (constant S_ .f32 0xFF800000#32),
    TRef.binary (TRef.of (T := ⟨S100000x40, .f32⟩) main_v66) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v66) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v67) subf ]

/-- The program's line is the four stretches in order. -/
theorem ops_split : (Value.ops : List (HloOp τ sig (Elt F))) = normOps ++ (layer1Ops ++ (layer2Ops ++ softmaxOps)) := rfl

variable (Wp : Valuation τ sig (Elt F))

/-! ## The normalisation -/

theorem norm_src : after normOps Wp (Proc.devRef .tc main_v3) = val_main_v3 (F := F) (Wp (Proc.devRef .tc main_arg1)) := by
  after_results_simp
  rfl
theorem norm_dst : after normOps Wp (Proc.devRef .tc main_v6) = val_main_v6 (F := F) (Wp (Proc.devRef .tc main_arg1)) := by
  after_results_simp
  rfl
theorem norm_w : after normOps Wp (Proc.devRef .tc main_v31) = val_main_v31 (F := F) (Wp (Proc.devRef .tc main_arg1)) (Wp (Proc.devRef .tc main_arg2)) := by
  after_results_simp
  rfl
theorem norm_arg0 : after normOps Wp (Proc.devRef .tc main_arg0) = Wp (Proc.devRef .tc main_arg0) := by kept_by normOps
theorem norm_arg3 : after normOps Wp (Proc.devRef .tc main_arg3) = Wp (Proc.devRef .tc main_arg3) := by kept_by normOps
theorem norm_arg4 : after normOps Wp (Proc.devRef .tc main_arg4) = Wp (Proc.devRef .tc main_arg4) := by kept_by normOps
theorem norm_arg5 : after normOps Wp (Proc.devRef .tc main_arg5) = Wp (Proc.devRef .tc main_arg5) := by kept_by normOps
theorem norm_arg6 : after normOps Wp (Proc.devRef .tc main_arg6) = Wp (Proc.devRef .tc main_arg6) := by kept_by normOps

/-! ## The first layer -/

theorem layer1_out (x0 : (⟨S100000x256, .f32⟩ : BufTy).Contents (Elt F)) (x1 : (⟨S2x3200000, .i32⟩ : BufTy).Contents (Elt F)) (x2 : (⟨S3200000, .f32⟩ : BufTy).Contents (Elt F)) (x3 : (⟨S256x16, .f32⟩ : BufTy).Contents (Elt F)) (x4 : (⟨S16, .f32⟩ : BufTy).Contents (Elt F)) (x5 : (⟨S16x40, .f32⟩ : BufTy).Contents (Elt F))
    (h3 : Wp (Proc.devRef .tc main_v3) = val_main_v3 (F := F) x1) (h6 : Wp (Proc.devRef .tc main_v6) = val_main_v6 (F := F) x1)
    (h31 : Wp (Proc.devRef .tc main_v31) = val_main_v31 (F := F) x1 x2)
    (a0 : Wp (Proc.devRef .tc main_arg0) = x0) (a3 : Wp (Proc.devRef .tc main_arg3) = x3) (a4 : Wp (Proc.devRef .tc main_arg4) = x4) (a5 : Wp (Proc.devRef .tc main_arg5) = x5) :
    after layer1Ops Wp (Proc.devRef .tc main_v50) = val_main_v50 (F := F) x0 x1 x2 x3 x4 x5 := by
  after_results_simp
  rw [h3, h6, h31, a0, a3, a4, a5]
  rfl
theorem layer1_src : after layer1Ops Wp (Proc.devRef .tc main_v3) = Wp (Proc.devRef .tc main_v3) := by kept_by layer1Ops
theorem layer1_dst : after layer1Ops Wp (Proc.devRef .tc main_v6) = Wp (Proc.devRef .tc main_v6) := by kept_by layer1Ops
theorem layer1_w : after layer1Ops Wp (Proc.devRef .tc main_v31) = Wp (Proc.devRef .tc main_v31) := by kept_by layer1Ops
theorem layer1_arg6 : after layer1Ops Wp (Proc.devRef .tc main_arg6) = Wp (Proc.devRef .tc main_arg6) := by kept_by layer1Ops

/-! ## The second layer -/

theorem layer2_out (x0 : (⟨S100000x256, .f32⟩ : BufTy).Contents (Elt F)) (x1 : (⟨S2x3200000, .i32⟩ : BufTy).Contents (Elt F)) (x2 : (⟨S3200000, .f32⟩ : BufTy).Contents (Elt F)) (x3 : (⟨S256x16, .f32⟩ : BufTy).Contents (Elt F)) (x4 : (⟨S16, .f32⟩ : BufTy).Contents (Elt F)) (x5 : (⟨S16x40, .f32⟩ : BufTy).Contents (Elt F)) (x6 : (⟨S40, .f32⟩ : BufTy).Contents (Elt F))
    (h3 : Wp (Proc.devRef .tc main_v3) = val_main_v3 (F := F) x1) (h6 : Wp (Proc.devRef .tc main_v6) = val_main_v6 (F := F) x1)
    (h31 : Wp (Proc.devRef .tc main_v31) = val_main_v31 (F := F) x1 x2)
    (h50 : Wp (Proc.devRef .tc main_v50) = val_main_v50 (F := F) x0 x1 x2 x3 x4 x5) (a6 : Wp (Proc.devRef .tc main_arg6) = x6) :
    after layer2Ops Wp (Proc.devRef .tc main_v66) = val_main_v66 (F := F) x0 x1 x2 x3 x4 x5 x6 := by
  after_results_simp
  rw [h3, h6, h31, h50, a6]
  rfl

/-! ## The log-softmax -/

/-- A value written through a typed reference and read back through it is itself (the transport along the
    reference's type equation, there and back). -/
theorem ofBuf_toBuf {T : BufTy} (t : TRef sig T) (v : T.Contents (Elt F)) : t.ofBuf (t.toBuf v) = v := by
  obtain ⟨r, rfl, h2, h3⟩ := t
  rfl

theorem softmax_out (x0 : (⟨S100000x256, .f32⟩ : BufTy).Contents (Elt F)) (x1 : (⟨S2x3200000, .i32⟩ : BufTy).Contents (Elt F)) (x2 : (⟨S3200000, .f32⟩ : BufTy).Contents (Elt F)) (x3 : (⟨S256x16, .f32⟩ : BufTy).Contents (Elt F)) (x4 : (⟨S16, .f32⟩ : BufTy).Contents (Elt F)) (x5 : (⟨S16x40, .f32⟩ : BufTy).Contents (Elt F)) (x6 : (⟨S40, .f32⟩ : BufTy).Contents (Elt F))
    (h66 : Wp (Proc.devRef .tc main_v66) = val_main_v66 (F := F) x0 x1 x2 x3 x4 x5 x6) :
    after softmaxOps Wp (Proc.devRef .tc main_v67) = val_main_v67 (F := F) x0 x1 x2 x3 x4 x5 x6 := by
  after_results_simp
  -- the callee's values pass through typed references: a value written through one and read back is itself
  simp only [ofBuf_toBuf]
  have h66' : (TRef.of (T := ⟨S100000x40, .f32⟩) main_v66).ofBuf (Wp (Proc.devRef .tc main_v66)) = val_main_v66 (F := F) x0 x1 x2 x3 x4 x5 x6 := h66
  rw [h66']
  refine eq_of_heq ((cast_heq _ _).trans (heq_of_eq ?_))
  -- the stretch's own stages, opened: the same tree of operations over the entry's logits
  simp only [val_main_v67, val_main_call2_v10, val_main_call2_v9, val_main_call2_v8, val_main_call2_v7, val_main_call2_cst_1, val_main_call2_v6, val_main_call2_v5, val_main_call2_v4, val_main_call2_v3, val_main_call2_v2, val_main_call2_v1, val_main_call2_cst_0, val_main_call2_v0, val_main_call2_cst]

/-! ## The whole line -/

/-- From any contents, the result buffer after the whole line is the last stage of the contents of the argument buffers. -/
theorem value : after Value.ops Wp (Proc.devRef .tc main_v67)
    = val_main_v67 (F := F) (Wp (Proc.devRef .tc main_arg0)) (Wp (Proc.devRef .tc main_arg1)) (Wp (Proc.devRef .tc main_arg2)) (Wp (Proc.devRef .tc main_arg3)) (Wp (Proc.devRef .tc main_arg4)) (Wp (Proc.devRef .tc main_arg5)) (Wp (Proc.devRef .tc main_arg6)) := by
  rw [ops_split, StableHlo.after_append, StableHlo.after_append, StableHlo.after_append]
  have s1 := norm_src Wp
  have d1 := norm_dst Wp
  have w1 := norm_w Wp
  have o2 := layer1_out (after normOps Wp) _ _ _ _ _ _ s1 d1 w1 (norm_arg0 Wp) (norm_arg3 Wp) (norm_arg4 Wp) (norm_arg5 Wp)
  have s2 := (layer1_src (after normOps Wp)).trans s1
  have d2 := (layer1_dst (after normOps Wp)).trans d1
  have w2 := (layer1_w (after normOps Wp)).trans w1
  have a62 := (layer1_arg6 (after normOps Wp)).trans (norm_arg6 Wp)
  have o3 := layer2_out (after layer1Ops (after normOps Wp)) _ _ _ _ _ _ _ s2 d2 w2 o2 a62
  exact softmax_out (after layer2Ops (after layer1Ops (after normOps Wp))) _ _ _ _ _ _ _ o3

set_option maxRecDepth 8192 in
set_option maxHeartbeats 40000000 in
/-- On every device, from any memory with zero counters: every weakly fair execution of @main terminates with the result
    at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67) = val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v67).trans (value (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq Value.scopedRefs_eq Value.scopedSems_eq defs main (fun _ => Value.ops) Value.main_eq (fun _ => Value.ops_sub) m ρ)

end Cert.ReferenceIdeal.Stages

end
-- ==== Proof.HostChain.lean ====
/-
  The host stretches of the kernel's @main, read over ANY valuation `Wp` of the buffers at the stretch's entry: what a
  stretch computes into a buffer is the reference's stage function of the same name of what `Wp` holds at the buffers
  the stretch reads, because the two programs print these stretches operation for operation alike (the symmetric
  normalisation: the degree by a scatter-add of the weights with unit self loops, its inverse square root where
  positive, the product of the two gathered factors with the weight; a propagation step: the rows of a feature array
  gathered at the wrapped source indices, scaled by the normalisation, scatter-added at the target indices). A buffer
  that no operation of a stretch writes keeps its contents.
-/
import proofs.«136380_j24721831756229_1_alg».proof.Proof.Gen.KernelIdeal.Launch
import proofs.«136380_j24721831756229_1_alg».proof.Proof.RefRead
import Idealize.ShloMosaic.Lib.StableHlo.Run

set_option maxRecDepth 16384

noncomputable section

namespace Cert.KernelIdeal.HostChain

open Cert.KernelIdeal Cert.KernelIdeal.Gen Cert.ReferenceIdeal.Read
open Idealize.ShloMosaic Idealize.ShloMosaic.TcCoe Idealize.ShloMosaic.StableHlo Idealize.SL.Sem

variable {F : FTy → Type} [FloatOps F]

/-- No operation of the named stretch writes the buffer: the fold keeps it. -/
macro "kept_by" ops:ident : tactic => `(tactic| (
  refine StableHlo.after_of_forall_not_mem _ _ (List.forall_iff_forall_mem.mp ?_)
  simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

variable (Wp : Valuation τ sig (Elt F))

/-! ## Before the first region: the self-looped edge lists and the normalisation -/

/-- The three stretches before the first region, as one fold. -/
abbrev pre (Wp : Valuation τ sig (Elt F)) : Valuation τ sig (Elt F) :=
  after hostOps0_2 (after hostOps0_1 (after hostOps0 Wp))

/-- The source indices with the self loops appended. -/
theorem pre_src : pre Wp (Proc.devRef .tc main_v3) = val_main_v3 (F := F) (Wp (Proc.devRef .tc main_arg1)) := by
  unfold pre
  have e2 : after hostOps0_2 (after hostOps0_1 (after hostOps0 Wp)) (Proc.devRef .tc main_v3) = after hostOps0_1 (after hostOps0 Wp) (Proc.devRef .tc main_v3) := by kept_by hostOps0_2
  have e1 : after hostOps0_1 (after hostOps0 Wp) (Proc.devRef .tc main_v3) = after hostOps0 Wp (Proc.devRef .tc main_v3) := by kept_by hostOps0_1
  rw [e2, e1]
  after_results_simp
  rfl

/-- The target indices with the self loops appended. -/
theorem pre_dst : pre Wp (Proc.devRef .tc main_v6) = val_main_v6 (F := F) (Wp (Proc.devRef .tc main_arg1)) := by
  unfold pre
  have e2 : after hostOps0_2 (after hostOps0_1 (after hostOps0 Wp)) (Proc.devRef .tc main_v6) = after hostOps0_1 (after hostOps0 Wp) (Proc.devRef .tc main_v6) := by kept_by hostOps0_2
  have e1 : after hostOps0_1 (after hostOps0 Wp) (Proc.devRef .tc main_v6) = after hostOps0 Wp (Proc.devRef .tc main_v6) := by kept_by hostOps0_1
  rw [e2, e1]
  after_results_simp
  rfl

/-- The per-edge normalisation: the inverse square roots of the two endpoints' degrees times the weight. -/
theorem pre_norm : pre Wp (Proc.devRef .tc main_v31)
    = val_main_v31 (F := F) (Wp (Proc.devRef .tc main_arg1)) (Wp (Proc.devRef .tc main_arg2)) := by
  unfold pre
  after_results_simp
  rfl

/-- An argument array is not written before the first region. -/
theorem pre_arg0 : pre Wp (Proc.devRef .tc main_arg0) = Wp (Proc.devRef .tc main_arg0) := by
  unfold pre
  exact ((by kept_by hostOps0_2 : after hostOps0_2 (after hostOps0_1 (after hostOps0 Wp)) (Proc.devRef .tc main_arg0) = _).trans
    ((by kept_by hostOps0_1 : after hostOps0_1 (after hostOps0 Wp) (Proc.devRef .tc main_arg0) = _).trans (by kept_by hostOps0)))
theorem pre_arg3 : pre Wp (Proc.devRef .tc main_arg3) = Wp (Proc.devRef .tc main_arg3) := by
  unfold pre
  exact ((by kept_by hostOps0_2 : after hostOps0_2 (after hostOps0_1 (after hostOps0 Wp)) (Proc.devRef .tc main_arg3) = _).trans
    ((by kept_by hostOps0_1 : after hostOps0_1 (after hostOps0 Wp) (Proc.devRef .tc main_arg3) = _).trans (by kept_by hostOps0)))
theorem pre_arg4 : pre Wp (Proc.devRef .tc main_arg4) = Wp (Proc.devRef .tc main_arg4) := by
  unfold pre
  exact ((by kept_by hostOps0_2 : after hostOps0_2 (after hostOps0_1 (after hostOps0 Wp)) (Proc.devRef .tc main_arg4) = _).trans
    ((by kept_by hostOps0_1 : after hostOps0_1 (after hostOps0 Wp) (Proc.devRef .tc main_arg4) = _).trans (by kept_by hostOps0)))
theorem pre_arg5 : pre Wp (Proc.devRef .tc main_arg5) = Wp (Proc.devRef .tc main_arg5) := by
  unfold pre
  exact ((by kept_by hostOps0_2 : after hostOps0_2 (after hostOps0_1 (after hostOps0 Wp)) (Proc.devRef .tc main_arg5) = _).trans
    ((by kept_by hostOps0_1 : after hostOps0_1 (after hostOps0 Wp) (Proc.devRef .tc main_arg5) = _).trans (by kept_by hostOps0)))
theorem pre_arg6 : pre Wp (Proc.devRef .tc main_arg6) = Wp (Proc.devRef .tc main_arg6) := by
  unfold pre
  exact ((by kept_by hostOps0_2 : after hostOps0_2 (after hostOps0_1 (after hostOps0 Wp)) (Proc.devRef .tc main_arg6) = _).trans
    ((by kept_by hostOps0_1 : after hostOps0_1 (after hostOps0 Wp) (Proc.devRef .tc main_arg6) = _).trans (by kept_by hostOps0)))

/-! ## Between the first and the second region: the first propagation step and the bias row -/

/-- The first layer's aggregate: the rows of the transformed features gathered at the wrapped sources, scaled by the
    normalisation and scatter-added at the targets. -/
theorem mid1_agg (x0 : (⟨S100000x256, .f32⟩ : BufTy).Contents (Elt F)) (x1 : (⟨S2x3200000, .i32⟩ : BufTy).Contents (Elt F)) (x2 : (⟨S3200000, .f32⟩ : BufTy).Contents (Elt F)) (x3 : (⟨S256x16, .f32⟩ : BufTy).Contents (Elt F))
    (h3 : Wp (Proc.devRef .tc main_v3) = val_main_v3 (F := F) x1) (h6 : Wp (Proc.devRef .tc main_v6) = val_main_v6 (F := F) x1)
    (h31 : Wp (Proc.devRef .tc main_v31) = val_main_v31 (F := F) x1 x2) (h32 : Wp (Proc.devRef .tc main_v32) = val_main_v32 (F := F) x0 x3) :
    after hostOps1 Wp (Proc.devRef .tc main_v45) = val_main_v45 (F := F) x0 x1 x2 x3 := by
  after_results_simp
  rw [h3, h6, h31, h32]
  rfl

/-- The first bias as a row. -/
theorem mid1_bias : after hostOps1 Wp (Proc.devRef .tc main_v46) = shapeCast S1x16 (Wp (Proc.devRef .tc main_arg4)) shapeCasts_S16_S1x16 := by
  after_results_simp
  rfl

theorem mid1_src : after hostOps1 Wp (Proc.devRef .tc main_v3) = Wp (Proc.devRef .tc main_v3) := by kept_by hostOps1
theorem mid1_dst : after hostOps1 Wp (Proc.devRef .tc main_v6) = Wp (Proc.devRef .tc main_v6) := by kept_by hostOps1
theorem mid1_norm : after hostOps1 Wp (Proc.devRef .tc main_v31) = Wp (Proc.devRef .tc main_v31) := by kept_by hostOps1
theorem mid1_arg5 : after hostOps1 Wp (Proc.devRef .tc main_arg5) = Wp (Proc.devRef .tc main_arg5) := by kept_by hostOps1
theorem mid1_arg6 : after hostOps1 Wp (Proc.devRef .tc main_arg6) = Wp (Proc.devRef .tc main_arg6) := by kept_by hostOps1

/-! ## Between the second and the third region: the second propagation step and the bias row -/

/-- The second layer's aggregate. -/
theorem mid2_agg (x0 : (⟨S100000x256, .f32⟩ : BufTy).Contents (Elt F)) (x1 : (⟨S2x3200000, .i32⟩ : BufTy).Contents (Elt F)) (x2 : (⟨S3200000, .f32⟩ : BufTy).Contents (Elt F)) (x3 : (⟨S256x16, .f32⟩ : BufTy).Contents (Elt F))
    (x4 : (⟨S16, .f32⟩ : BufTy).Contents (Elt F)) (x5 : (⟨S16x40, .f32⟩ : BufTy).Contents (Elt F))
    (h3 : Wp (Proc.devRef .tc main_v3) = val_main_v3 (F := F) x1) (h6 : Wp (Proc.devRef .tc main_v6) = val_main_v6 (F := F) x1)
    (h31 : Wp (Proc.devRef .tc main_v31) = val_main_v31 (F := F) x1 x2) (h47 : Wp (Proc.devRef .tc main_v47) = val_main_v50 (F := F) x0 x1 x2 x3 x4 x5) :
    after hostOps2 Wp (Proc.devRef .tc main_v60) = val_main_v63 (F := F) x0 x1 x2 x3 x4 x5 := by
  after_results_simp
  rw [h3, h6, h31, h47]
  rfl

/-- The second bias as a row. -/
theorem mid2_bias : after hostOps2 Wp (Proc.devRef .tc main_v61) = shapeCast S1x40 (Wp (Proc.devRef .tc main_arg6)) shapeCasts_S40_S1x40 := by
  after_results_simp
  rfl

end Cert.KernelIdeal.HostChain

end
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.LibGcnSpec.lean ====
/-
  One layer of a graph convolution at the extended reals, index by index: the features times the weights, the
  adjacency times that product, and a clamp at zero,

      layer A X W (p, q) = max (∑ₖ A(p, k) · (∑ⱼ X(k, j) · W(j, q))) 0,

  every sum a plain row-by-column sum over the contracted axis (no regrouping, so nothing here needs the entries to be
  finite). Three readings of it: the host's two `dot_general`s and `maximum` against a broadcast zero ARE this
  function; a matrix-unit product of a BLOCK OF ROWS of the adjacency with the whole hidden array, clamped, is this
  function read at those rows; and the hidden array a kernel keeps (one matrix-unit product into a zero accumulator)
  is the inner sum. A record of dimension numbers enters only through the six facts of a plain product, which any
  record listing "contract axis 1 of the left with axis 0 of the right, no batch axes" has.
-/
import Idealize.ShloMosaic.PureOps.Ideal
import Idealize.ShloMosaic.PureOps.Ideal.Laws
import Idealize.ShloMosaic.Lib.ValueIdx
import proofs.«136380_j24721831756229_1_alg».proof.Proof.LibSageSpec

noncomputable section

open scoped BigOperators

namespace Idealize.ShloMosaic.GcnSpec

open Idealize.ShloMosaic Idealize.ShloMosaic.ValueIdx Idealize.ShloMosaic.SageSpec

/-! ## Plain dimension numbers -/

/-- A record whose lists are the plain ones — contract axis 1 of the left operand with axis 0 of the right, the other
    two axes kept in order, no batch axis — reads its operands at (row, κ) and (κ, column), whatever the extents. -/
theorem plainDot_of_lists {n k m : Nat} (d : DotDims ⟨2, ![n, k]⟩ ⟨2, ![k, m]⟩ ⟨2, ![n, m]⟩)
    (hlc : d.lhsContracting = [1]) (hrc : d.rhsContracting = [0]) (hln : d.lhsNonContracting = [0])
    (hrn : d.rhsNonContracting = [1]) (hlb : d.lhsBatch = []) (hrb : d.rhsBatch = []) : PlainDot d := by
  obtain ⟨lc, rc, ln, rn, lb, rb, wf⟩ := d
  dsimp only at hlc hrc hln hrn hlb hrb
  subst hlc hrc hln hrn hlb hrb
  refine ⟨rfl, fun _ => rfl, fun i q => ?_, fun i q _ => DotDims.lhsIdx_val_of_single _ rfl i q,
    fun i q _ => DotDims.rhsIdx_val_of_single _ rfl i q, fun i q => ?_⟩
  · unfold DotDims.lhsIdx
    rw [dif_neg List.not_mem_nil, dif_pos (List.mem_singleton.mpr rfl)]
    rfl
  · unfold DotDims.rhsIdx
    rw [dif_neg List.not_mem_nil, dif_pos (List.mem_singleton.mpr rfl)]
    rfl

/-! ## The layer -/

/-- The clamp at zero, the zero spelt as the word both programs print. -/
def clamp0 (s : EReal) : EReal := max s (Ideal.ofBits .f32 0x00000000#32)

/-- The hidden array: features times weights. -/
def hidden {n f h : Nat} (X : Mat n f) (W : Mat f h) : Mat n h := fun j => rowDot X W (j 0) (j 1)

/-- One layer: the adjacency times the hidden array, clamped at zero. -/
def layer {n f h : Nat} (A : Mat n n) (X : Mat n f) (W : Mat f h) : Mat n h :=
  fun i => clamp0 (rowDot A (hidden X W) (i 0) (i 1))

/-- A matrix-unit product into a zero accumulator, under a same-shape cast, is the hidden array. -/
theorem matmul_zero_eq_hidden {n f h : Nat} {d : DotDims ⟨2, ![n, f]⟩ ⟨2, ![f, h]⟩ ⟨2, ![n, h]⟩} (hd : PlainDot d)
    (prec : Option ContractPrecision) (X : FVec Ideal ⟨2, ![n, f]⟩ .f32) (W : FVec Ideal ⟨2, ![f, h]⟩ .f32) :
    FloatOps.matmul d prec X W (constant ⟨2, ![n, h]⟩ .f32 0x00000000#32) = hidden (fun i => X i) (fun i => W i) :=
  funext fun j => matmul_zero_at hd prec X W j

/-- The host's layer as printed — two `dot_general`s, then `maximum` against the broadcast zero word — is `layer`. -/
theorem host_layer {n f h : Nat} {d1 : DotDims ⟨2, ![n, f]⟩ ⟨2, ![f, h]⟩ ⟨2, ![n, h]⟩} {d2 : DotDims ⟨2, ![n, n]⟩ ⟨2, ![n, h]⟩ ⟨2, ![n, h]⟩}
    (h1 : PlainDot d1) (h2 : PlainDot d2) (A : FVec Ideal ⟨2, ![n, n]⟩ .f32) (X : FVec Ideal ⟨2, ![n, f]⟩ .f32) (W : FVec Ideal ⟨2, ![f, h]⟩ .f32)
    (Z : FVec Ideal ⟨2, ![n, h]⟩ .f32) (hZ : ∀ i, Z i = Ideal.ofBits .f32 0x00000000#32) :
    maximumf (Host.dotGeneral d2 none A (Host.dotGeneral d1 none X W)) Z = layer (fun i => A i) (fun i => X i) (fun i => W i) := by
  funext i
  rw [maximumf_apply, hZ, dotGeneral_at h2]
  unfold layer clamp0 rowDot
  refine congrArg (fun s => max s _) (Finset.sum_congr rfl fun κ _ => ?_)
  exact congrArg (fun s => A (ix2 (i 0) κ) * s) (dotGeneral_at h1 none X W (ix2 κ (i 1)))

/-- The kernel's block: `b` rows of the adjacency (row `r` of the block is row `row r` of the array) times the whole
    hidden array on the matrix unit into a zero accumulator, clamped against the splat zero word, read at (r, q), is
    the layer at (row r, q). -/
theorem block_layer {n f h b : Nat} {d : DotDims ⟨2, ![b, n]⟩ ⟨2, ![n, h]⟩ ⟨2, ![b, h]⟩} (hd : PlainDot d)
    (A : Mat n n) (X : Mat n f) (W : Mat f h) (a : FVec Ideal ⟨2, ![b, n]⟩ .f32) (row : Fin b → Fin n)
    (ha : ∀ (r : Fin b) (κ : Fin n), a (ix2 r κ) = A (ix2 (row r) κ))
    (H : FVec Ideal ⟨2, ![n, h]⟩ .f32) (hH : ∀ j, H j = hidden X W j)
    (Z : FVec Ideal ⟨2, ![b, h]⟩ .f32) (hZ : ∀ i, Z i = Ideal.ofBits .f32 0x00000000#32) (r : Fin b) (q : Fin h) :
    maximumf (FloatOps.matmul d none a H (constant ⟨2, ![b, h]⟩ .f32 0x00000000#32)) Z (ix2 r q) = layer A X W (ix2 (row r) q) := by
  rw [maximumf_apply, hZ, matmul_zero_at hd]
  unfold layer clamp0 rowDot
  refine congrArg (fun s => max s _) (Finset.sum_congr rfl fun κ _ => ?_)
  show a (ix2 r κ) * H (ix2 κ q) = A (ix2 (row r) κ) * hidden X W (ix2 κ q)
  rw [ha, hH]

end Idealize.ShloMosaic.GcnSpec

end
-- ==== Proof.Region0.lean ====
import proofs.«136380_j24721831756229_1_alg».proof.Proof.Gen.KernelIdeal.Frame
import proofs.«136380_j24721831756229_1_alg».proof.Proof.RefRead
import proofs.«136380_j24721831756229_1_alg».proof.Proof.LibSageSpec
import proofs.«136380_j24721831756229_1_alg».proof.Proof.LibGcnSpec
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.SL.Sem
open Idealize.ShloMosaic.ValueIdx Idealize.ShloMosaic.SageSpec Idealize.ShloMosaic.GcnSpec

variable (V : (c : Dev nD) → (b : Ref sig .tc) → Buf (Elt Ideal) ((c : Thread nD τ).loc b)) (c : Dev nD)

/-- The zero offset vector of a rank-2 block, as a constant function. -/
theorem hz0 : (![0, 0] : Fin 2 → Nat) = fun _ => 0 := funext fun a => by fin_cases a <;> rfl

/-- The block product at (p, q): row p of the left block against column q of the right block, summed over the
    256 contracted coordinates (a change of float format is the identity at the extended reals, and the accumulator
    starts at zero). -/
theorem pay0_at (a : Vec Ideal S2000x256 .f32) (w : Vec Ideal S256x16 .f32) (p : Fin 2000) (q : Fin 16) :
    k0_pay1 (F := Ideal) a w (ix2 p q) = ∑ k : Fin 256, a (ix2 p k) * w (ix2 k q) := by
  unfold k0_pay1
  exact (matmul_zero_at (plainDot_of_lists dot_S2000x256_S256x16_S2000x16_1_0_0_1_n_n rfl rfl rfl rfl rfl rfl) none _ _ (ix2 p q)).trans rfl

/-- The same at any index of the output block, its coordinates read as naturals below the block's extents. -/
theorem pay0_idx (a : Vec Ideal S2000x256 .f32) (w : Vec Ideal S256x16 .f32) (y : S2000x16.Idx) :
    k0_pay1 (F := Ideal) a w y
      = ∑ k : Fin 256, a (ix2 (⟨(y 0).val, (y 0).isLt⟩ : Fin 2000) k) * w (ix2 k (⟨(y 1).val, (y 1).isLt⟩ : Fin 16)) := by
  obtain ⟨p, q, rfl⟩ : ∃ (p : Fin 2000) (q : Fin 16), y = ix2 p q := ⟨y 0, y 1, eq_ix2 y⟩
  exact pay0_at a w p q

/-- The printed index maps over the 50 grid points: the left operand's row block moves with the output's, which is the
    point's number; every other block index is zero. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- An index of the output array is in point t's block iff each coordinate is in the block's range on its axis. -/
theorem mem_blk0 (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v32).slice (win0_2.rect t)).set ↔ _
  rw [View.set_slice_whole, Rect.mem_set_unit]
  exact Iff.rfl

/-- Every index of the [100000, 16] array lies in the block of the point numbered by its row divided by 2000. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 50 := N_0
  refine ⟨⟨(i 0).val / 2000, by rw [hN]; omega⟩, flush0_2 _, ?_⟩
  rw [mem_blk0]
  obtain ⟨e0, e1, e2, e3, e4, e5⟩ := idx_facts0 ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 16 ≤ (i 1).val ∧ (i 1).val < win0_2.index _ (1 : Fin 2) * 16 + 16
    rw [e5]; omega

/-- WHAT POINT t WRITES BACK is block t of any array G that at every (r, q) holds row r of x0 against column q of x3,
    when the region finds x0 and x3 in its two input arrays: the output block's row p is row 2000·t + p of the array,
    the left block's row p is the same row of x0, and the right block is all of x3. -/
theorem flushed0_eq (x0 : (⟨S100000x256, .f32⟩ : BufTy).Contents (Elt Ideal)) (x3 : (⟨S256x16, .f32⟩ : BufTy).Contents (Elt Ideal))
    (G : (⟨S100000x16, .f32⟩ : BufTy).Contents (Elt Ideal))
    (hG : ∀ i : S100000x16.Idx, G i = ∑ k : Fin 256, x0 (ix2 (⟨(i 0).val, (i 0).isLt⟩ : Fin 100000) k) * x3 (ix2 k (⟨(i 1).val, (i 1).isLt⟩ : Fin 16)))
    (h0 : V c main_arg0 = x0) (h3 : V c main_arg3 = x3) (t : Fin cfg0.N) :
    (dat0 V c).flushed 2 t = ((cfg0.win 2).blk t).view.read (Elt Ideal) G := by
  show (cfg0.win 2).cut (grid0.coords t) ((dat0 V c).after 2 t) = _
  rw [after0_2]
  unfold out0_2
  rw [View.canon_unit_zero hz0]
  simp only [View.ld_unit_zero (S := S2000x256) hz0, View.ld_unit_zero (S := S256x16) hz0]
  obtain ⟨e0, e1, e2, e3, e4, e5⟩ := idx_facts0 t
  funext y
  show k0_pay1 (iblk0 V c 0 t) (iblk0 V c 1 t) y = G (((cfg0.win 2).blk t).view.emb y)
  refine (pay0_idx (iblk0 V c 0 t) (iblk0 V c 1 t) y).trans ?_
  rw [hG]
  refine Finset.sum_congr rfl fun k _ => ?_
  have hy0 : (y 0).val < 2000 := (y 0).isLt
  have hy1 : (y 1).val < 16 := (y 1).isLt
  have hk : k.val < 256 := k.isLt
  have hl : iblk0 V c 0 t (ix2 (⟨(y 0).val, (y 0).isLt⟩ : Fin 2000) k)
      = x0 (ix2 (⟨((((cfg0.win 2).blk t).view.emb y) 0).val, ((((cfg0.win 2).blk t).view.emb y) 0).isLt⟩ : Fin 100000) k) := by
    show V c main_arg0 (((cfg0.win 0).blk t).view.emb (ix2 (⟨(y 0).val, (y 0).isLt⟩ : Fin 2000) k)) = _
    rw [h0]
    refine congrArg x0 ?_
    funext a; apply Fin.ext
    match a with
    | ⟨0, _⟩ => show win0_0.index t (0 : Fin 2) * 2000 + 1 * (y 0).val = win0_2.index t (0 : Fin 2) * 2000 + 1 * (y 0).val; omega
    | ⟨1, _⟩ => show win0_0.index t (1 : Fin 2) * 256 + 1 * k.val = k.val; omega
  have hr : iblk0 V c 1 t (ix2 k (⟨(y 1).val, (y 1).isLt⟩ : Fin 16))
      = x3 (ix2 k (⟨((((cfg0.win 2).blk t).view.emb y) 1).val, ((((cfg0.win 2).blk t).view.emb y) 1).isLt⟩ : Fin 16)) := by
    show V c main_arg3 (((cfg0.win 1).blk t).view.emb (ix2 k (⟨(y 1).val, (y 1).isLt⟩ : Fin 16))) = _
    rw [h3]
    refine congrArg x3 ?_
    funext a; apply Fin.ext
    match a with
    | ⟨0, _⟩ => show win0_1.index t (0 : Fin 2) * 256 + 1 * k.val = k.val; omega
    | ⟨1, _⟩ => show win0_1.index t (1 : Fin 2) * 16 + 1 * (y 1).val = win0_2.index t (1 : Fin 2) * 16 + 1 * (y 1).val; omega
  rw [hl, hr]

/-- THE OUTPUT ARRAY after the 50 points is any such G: every point writes back its block of G, and the blocks
    cover the array. -/
theorem arr0_of_read (x0 : (⟨S100000x256, .f32⟩ : BufTy).Contents (Elt Ideal)) (x3 : (⟨S256x16, .f32⟩ : BufTy).Contents (Elt Ideal))
    (G : (⟨S100000x16, .f32⟩ : BufTy).Contents (Elt Ideal))
    (hG : ∀ i : S100000x16.Idx, G i = ∑ k : Fin 256, x0 (ix2 (⟨(i 0).val, (i 0).isLt⟩ : Fin 100000) k) * x3 (ix2 k (⟨(i 1).val, (i 1).isLt⟩ : Fin 16)))
    (h0 : V c main_arg0 = x0) (h3 : V c main_arg3 = x3) :
    (dat0 V c).arrAt 2 cfg0.N = G :=
  (dat0 V c).arrAt_eq_of_cover 2 G (fun t _ => flushed0_eq V c x0 x3 G hG h0 h3 t) cover0

/-- REGION 0's output array after its 50 grid points is the reference's product of the two argument arrays: the
    reference's element at (r, q) is the same sum over the 256 contracted coordinates of x0 (r, k) · x3 (k, q). -/
theorem arr0 (x0 : (⟨S100000x256, .f32⟩ : BufTy).Contents (Elt Ideal)) (x3 : (⟨S256x16, .f32⟩ : BufTy).Contents (Elt Ideal))
    (h0 : V c main_arg0 = x0) (h3 : V c main_arg3 = x3) :
    (dat0 V c).arrAt 2 cfg0.N = Cert.ReferenceIdeal.Read.val_main_v32 (F := Ideal) x0 x3 := by
  refine arr0_of_read V c x0 x3 _ (fun i => ?_) h0 h3
  rw [Cert.ReferenceIdeal.Read.val_main_v32_apply]
  refine Finset.sum_congr rfl fun k _ => ?_
  have el : Cert.ReferenceIdeal.Read.lidx_main_v32 i k = ix2 (⟨(i 0).val, (i 0).isLt⟩ : Fin 100000) k :=
    funext fun a => by match a with | ⟨0, _⟩ => rfl | ⟨1, _⟩ => rfl
  have er : Cert.ReferenceIdeal.Read.ridx_main_v32 i k = ix2 k (⟨(i 1).val, (i 1).isLt⟩ : Fin 16) :=
    funext fun a => by match a with | ⟨0, _⟩ => rfl | ⟨1, _⟩ => rfl
  rw [el, er]

end Cert.KernelIdeal.RegionValue

end
-- ==== Proof.Region1.lean ====
import proofs.«136380_j24721831756229_1_alg».proof.Proof.Gen.KernelIdeal.Frame
import proofs.«136380_j24721831756229_1_alg».proof.Proof.RefRead
import proofs.«136380_j24721831756229_1_alg».proof.Proof.LibGcnSpec
import Idealize.ShloMosaic.Lib.Pipeline.Value
import Idealize.ShloMosaic.Lib.ValueLayout

set_option maxRecDepth 16384

noncomputable section

namespace Cert.KernelIdeal.RegionValue

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b)) (c : Dev nD)

section Layer

open Idealize.ShloMosaic.ValueIdx Idealize.ShloMosaic.SageSpec Idealize.ShloMosaic.GcnSpec
open Idealize.ShloMosaic.Pipeline (Dat)

/-! ## The layer, entry by entry

With `A` the aggregated rows, `B` the bias as one row and `W` the weights, the hidden layer's entry (r, q) is
`∑ₖ max (A(r, k) + B(0, k)) 0 · W(k, q)`: a clamp at zero of the biased row, against a column of the weights. -/

/-- Entry (r, q) of the layer. -/
def reluDenseAt (A : (⟨S100000x16, .f32⟩ : BufTy).Contents (Elt Ideal)) (B : (⟨S1x16, .f32⟩ : BufTy).Contents (Elt Ideal))
    (W : (⟨S16x40, .f32⟩ : BufTy).Contents (Elt Ideal)) (r : Fin 100000) (q : Fin 40) : EReal :=
  ∑ k : Fin 16, max (A (ix2 r k) + B (ix2 0 k)) (Ideal.ofBits .f32 0x00000000#32) * W (ix2 k q)

/-- The layer as a whole [100000, 40] array. -/
def reluDense (A : (⟨S100000x16, .f32⟩ : BufTy).Contents (Elt Ideal)) (B : (⟨S1x16, .f32⟩ : BufTy).Contents (Elt Ideal))
    (W : (⟨S16x40, .f32⟩ : BufTy).Contents (Elt Ideal)) : (⟨S100000x40, .f32⟩ : BufTy).Contents (Elt Ideal) :=
  fun i => reluDenseAt A B W ⟨(i 0).val, (i 0).isLt⟩ ⟨(i 1).val, (i 1).isLt⟩

/-! ## One entry of the block a grid point computes -/

/-- The block product's dimension numbers are the plain rows-by-columns ones. -/
theorem plain_block : PlainDot dot_S2000x16_S16x40_S2000x40_1_0_0_1_n_n :=
  plainDot_of_lists _ rfl rfl rfl rfl rfl rfl

/-- Entry (p, q) of the block the body stores: row `p` of the clamped biased rows against column `q` of the weights. -/
theorem pay_at (a : Vec Ideal S2000x16 .f32) (b : Vec Ideal S1x16 .f32) (w : Vec Ideal S16x40 .f32) (p : Fin 2000) (q : Fin 40) :
    k1_pay1 (F := Ideal) a b w (ix2 p q)
      = ∑ k : Fin 16, max (a (ix2 p k) + b (ix2 0 k)) (Ideal.ofBits .f32 0x00000000#32) * w (ix2 k q) := by
  unfold k1_pay1
  simp only [matmul]
  rw [matmul_zero_at plain_block]
  unfold rowDot
  refine Finset.sum_congr rfl fun k _ => ?_
  show (truncf FTy.bf16 (maximumf (addf (shapeCast S2000x16 a shapeCasts_S2000x16_S2000x16)
          (broadcastTo S2000x16 (shapeCast S1x16 b shapeCasts_S1x16_S1x16) broadcasts_S1x16_S2000x16))
        (broadcast S2000x16 (FloatOps.ofBits FTy.f32 0#32))) bitsLt_bf16_f32 : FVec Ideal S2000x16 .bf16) (ix2 p k)
      * (truncf FTy.bf16 w bitsLt_bf16_f32 : FVec Ideal S16x40 .bf16) (ix2 k q) = _
  rw [truncf_apply, truncf_apply, maximumf_apply, addf_apply, shapeCast_self, shapeCast_self, broadcast_apply,
    broadcastTo_apply b broadcasts_S1x16_S2000x16 (ix2 p k) (ix2 0 k) (fun a => by
      match a with
      | ⟨0, _⟩ => show (0 : Nat) = if (1 : Nat) = 1 then 0 else p.val; rw [if_pos rfl]
      | ⟨1, _⟩ => show k.val = if (16 : Nat) = 1 then 0 else k.val; rw [if_neg (by decide)])]
  rfl

/-- A block whose rows are rows of `A` from row `r₀` on, with the whole bias row and the whole weights, computes at
    (p, q) the layer's entry (r₀ + p, q). -/
theorem block_entry (A : (⟨S100000x16, .f32⟩ : BufTy).Contents (Elt Ideal)) (B : (⟨S1x16, .f32⟩ : BufTy).Contents (Elt Ideal))
    (W : (⟨S16x40, .f32⟩ : BufTy).Contents (Elt Ideal))
    (a : Vec Ideal S2000x16 .f32) (b : Vec Ideal S1x16 .f32) (w : Vec Ideal S16x40 .f32)
    (y : S2000x40.Idx) (i : S100000x40.Idx)
    (ha : ∀ k : Fin 16, a (ix2 (⟨(y 0).val, (y 0).isLt⟩ : Fin 2000) k) = A (ix2 (⟨(i 0).val, (i 0).isLt⟩ : Fin 100000) k))
    (hb : ∀ k : Fin 16, b (ix2 (0 : Fin 1) k) = B (ix2 (0 : Fin 1) k))
    (hw : ∀ k : Fin 16, w (ix2 k (⟨(y 1).val, (y 1).isLt⟩ : Fin 40)) = W (ix2 k (⟨(i 1).val, (i 1).isLt⟩ : Fin 40))) :
    k1_pay1 (F := Ideal) a b w y = reluDense A B W i := by
  have hy : y = ix2 (⟨(y 0).val, (y 0).isLt⟩ : Fin 2000) (⟨(y 1).val, (y 1).isLt⟩ : Fin 40) :=
    eq_ix2 (n0 := 2000) (n1 := 40) y
  refine (congrArg (k1_pay1 (F := Ideal) a b w) hy).trans ?_
  rw [pay_at]
  unfold reluDense reluDenseAt
  refine Finset.sum_congr rfl fun k _ => ?_
  rw [ha, hb, hw]

/-! ## The windows' blocks as parts of their arrays -/

theorem hz : (![0, 0] : Fin 2 → Nat) = fun _ => 0 := funext fun a => by fin_cases a <;> rfl

/-- The printed index maps over the 50 grid points: the rows window and the output window sit at block row `t`, column
    block 0; the bias and the weights are whole. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 49 ∧ win1_3.index t (1 : Fin 2) = 0 :=
  (by decide +kernel : ∀ t : Fin grid1.N, _)

/-- Every block row is some grid point's. -/
theorem idx_onto : ∀ (q0 : Fin 50), ∃ t : Fin cfg1.N, win1_3.index t = ![q0.val, 0] :=
  (by decide +kernel : ∀ (q0 : Fin 50), ∃ t : Fin grid1.N, win1_3.index t = ![q0.val, 0])

/-- The rows window's block at point `t` is rows `2000·t …` of the aggregated array. -/
theorem rows_at (t : Fin cfg1.N) (y : S2000x16.Idx) (i : S100000x16.Idx)
    (h0 : (i 0).val = win1_3.index t (0 : Fin 2) * 2000 + (y 0).val) (h1 : (i 1).val = (y 1).val) :
    (iblk1 V c 0 t : Vec Ideal S2000x16 .f32) y = (V c main_v45 : S100000x16.Idx → Elt Ideal .f32) i := by
  obtain ⟨e0, e1, -⟩ := idx_facts t
  unfold iblk1
  rw [View.read_apply]
  show V c main_v45 _ = V c main_v45 _
  congr 1
  funext a
  apply Fin.ext
  match a with
  | ⟨0, _⟩ => show win1_0.index t (0 : Fin 2) * 2000 + 1 * (y 0).val = (i 0).val; omega
  | ⟨1, _⟩ => show win1_0.index t (1 : Fin 2) * 16 + 1 * (y 1).val = (i 1).val; omega

/-- The bias window's block is the whole bias row, at every point. -/
theorem bias_at (t : Fin cfg1.N) (y : S1x16.Idx) :
    (iblk1 V c 1 t : Vec Ideal S1x16 .f32) y = (V c main_v46 : S1x16.Idx → Elt Ideal .f32) y := by
  obtain ⟨-, -, e0, e1, -⟩ := idx_facts t
  unfold iblk1
  rw [View.read_apply]
  show V c main_v46 _ = V c main_v46 _
  congr 1
  funext a
  apply Fin.ext
  match a with
  | ⟨0, _⟩ => show win1_1.index t (0 : Fin 2) * 1 + 1 * (y 0).val = (y 0).val; omega
  | ⟨1, _⟩ => show win1_1.index t (1 : Fin 2) * 16 + 1 * (y 1).val = (y 1).val; omega

/-- The weights window's block is the whole weight matrix, at every point. -/
theorem weights_at (t : Fin cfg1.N) (y : S16x40.Idx) :
    (iblk1 V c 2 t : Vec Ideal S16x40 .f32) y = (V c main_arg5 : S16x40.Idx → Elt Ideal .f32) y := by
  obtain ⟨-, -, -, -, e0, e1, -⟩ := idx_facts t
  unfold iblk1
  rw [View.read_apply]
  show V c main_arg5 _ = V c main_arg5 _
  congr 1
  funext a
  apply Fin.ext
  match a with
  | ⟨0, _⟩ => show win1_2.index t (0 : Fin 2) * 16 + 1 * (y 0).val = (y 0).val; omega
  | ⟨1, _⟩ => show win1_2.index t (1 : Fin 2) * 40 + 1 * (y 1).val = (y 1).val; omega

/-! ## From blocks to the array -/

/-- What point `t` writes back is block `t` of the layer of the arrays the region finds. -/
theorem flushed_eq (t : Fin cfg1.N) :
    (dat1 V c).flushed 3 t = ((cfg1.win 3).blk t).view.read (Elt Ideal) (reluDense (V c main_v45) (V c main_v46) (V c main_arg5)) := by
  show (cfg1.win 3).cut (grid1.coords t) ((dat1 V c).after 3 t) = _
  rw [after1_3]
  unfold out1_3
  rw [View.canon_unit_zero hz]
  simp only [View.ld_unit_zero (S := S2000x16) hz, View.ld_unit_zero (S := S1x16) hz, View.ld_unit_zero (S := S16x40) hz]
  funext y
  show k1_pay1 (F := Ideal) (iblk1 V c 0 t) (iblk1 V c 1 t) (iblk1 V c 2 t) y
    = reluDense (V c main_v45) (V c main_v46) (V c main_arg5) (((cfg1.win 3).blk t).view.emb y)
  refine block_entry _ _ _ _ _ _ y _ (fun k => ?_) (fun k => bias_at V c t _) (fun k => ?_)
  · refine rows_at V c t _ _ ?_ rfl
    show win1_3.index t (0 : Fin 2) * 2000 + 1 * (y 0).val = win1_3.index t (0 : Fin 2) * 2000 + (y 0).val
    omega
  · refine (weights_at V c t _).trans (congrArg (V c main_arg5 : S16x40.Idx → Elt Ideal .f32) ?_)
    obtain ⟨-, -, -, -, -, -, -, e1⟩ := idx_facts t
    funext a
    apply Fin.ext
    match a with
    | ⟨0, _⟩ => rfl
    | ⟨1, _⟩ => show (y 1).val = win1_3.index t (1 : Fin 2) * 40 + 1 * (y 1).val; omega

/-- An index of the array is in point `t`'s block iff each coordinate is in the block's range on its axis. -/
theorem mem_blk (t : Fin cfg1.N) (i : S100000x40.Idx) :
    i ∈ ((cfg1.win 3).blk t).view.set ↔ ∀ a : Fin 2, win1_3.index t a * S2000x40.size a ≤ (i a).val ∧ (i a).val < win1_3.index t a * S2000x40.size a + S2000x40.size a := by
  show i ∈ ((View.whole main_v47).slice (win1_3.rect t)).set ↔ _
  rw [View.set_slice_whole, Rect.mem_set_unit]
  exact Iff.rfl

/-- Row `r` lies in the block of point `r / 2000`: the 50 blocks of 2000 rows tile the 100000 rows. -/
theorem covered (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  obtain ⟨t, ht⟩ := idx_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 40 ≤ (i 1).val ∧ (i 1).val < win1_3.index t (1 : Fin 2) * 40 + 40; omega

/-- The output array after the 50 points is the layer of the arrays the region finds. -/
theorem arr1_reluDense : (dat1 V c).arrAt 3 cfg1.N = reluDense (V c main_v45) (V c main_v46) (V c main_arg5) :=
  (dat1 V c).arrAt_eq_of_cover 3 _ (fun t _ => flushed_eq V c t) covered

/-! ## The reference's stage is the layer -/

/-- The host's `dot_general` of the clamped biased rows with the weights is the layer of the aggregated rows, the bias
    reshaped to one row, and the weights: the host broadcasts the bias down the rows, the layer reads the one row. -/
theorem ref_reluDense (x0 : (⟨S100000x256, .f32⟩ : BufTy).Contents (Elt Ideal)) (x1 : (⟨S2x3200000, .i32⟩ : BufTy).Contents (Elt Ideal)) (x2 : (⟨S3200000, .f32⟩ : BufTy).Contents (Elt Ideal)) (x3 : (⟨S256x16, .f32⟩ : BufTy).Contents (Elt Ideal))
    (x4 : (⟨S16, .f32⟩ : BufTy).Contents (Elt Ideal)) (x5 : (⟨S16x40, .f32⟩ : BufTy).Contents (Elt Ideal)) :
    Cert.ReferenceIdeal.Read.val_main_v50 (F := Ideal) x0 x1 x2 x3 x4 x5
      = reluDense (Cert.ReferenceIdeal.Read.val_main_v45 (F := Ideal) x0 x1 x2 x3) (shapeCast S1x16 x4 shapeCasts_S16_S1x16) x5 := by
  funext i
  rw [Cert.ReferenceIdeal.Read.val_main_v50_apply]
  unfold reluDense reluDenseAt
  refine Finset.sum_congr rfl fun k _ => ?_
  have el : Cert.ReferenceIdeal.Read.lidx_main_v50 i k = ix2 (⟨(i 0).val, (i 0).isLt⟩ : Fin 100000) k :=
    funext fun a => by match a with | ⟨0, _⟩ => rfl | ⟨1, _⟩ => rfl
  have er : Cert.ReferenceIdeal.Read.ridx_main_v50 i k = ix2 k (⟨(i 1).val, (i 1).isLt⟩ : Fin 40) :=
    funext fun a => by match a with | ⟨0, _⟩ => rfl | ⟨1, _⟩ => rfl
  have eb : Cert.ReferenceIdeal.Read.idx_main_v46 (Cert.ReferenceIdeal.Read.idx_main_v47 (ix2 (⟨(i 0).val, (i 0).isLt⟩ : Fin 100000) k)) = ix1 k :=
    funext fun a => by match a with | ⟨0, _⟩ => rfl
  rw [el, er, Cert.ReferenceIdeal.Read.val_main_v49_apply, Cert.ReferenceIdeal.Read.val_main_v48_apply,
    Cert.ReferenceIdeal.Read.val_main_v47_apply, Cert.ReferenceIdeal.Read.val_main_v46_apply,
    Cert.ReferenceIdeal.Read.val_main_call1_v0_apply, Cert.ReferenceIdeal.Read.val_main_call1_cst_apply, eb,
    shapeCast_a_1a_apply x4 shapeCasts_S16_S1x16 (0 : Fin 1) k]
  rfl

/-! ## The region's output array -/

end Layer

theorem arr1 (x0 : (⟨S100000x256, .f32⟩ : BufTy).Contents (Elt Ideal)) (x1 : (⟨S2x3200000, .i32⟩ : BufTy).Contents (Elt Ideal)) (x2 : (⟨S3200000, .f32⟩ : BufTy).Contents (Elt Ideal)) (x3 : (⟨S256x16, .f32⟩ : BufTy).Contents (Elt Ideal))
    (x4 : (⟨S16, .f32⟩ : BufTy).Contents (Elt Ideal)) (x5 : (⟨S16x40, .f32⟩ : BufTy).Contents (Elt Ideal))
    (hA : V c main_v45 = Cert.ReferenceIdeal.Read.val_main_v45 (F := Ideal) x0 x1 x2 x3)
    (hb : V c main_v46 = shapeCast S1x16 x4 shapeCasts_S16_S1x16) (hW : V c main_arg5 = x5) :
    (dat1 V c).arrAt 3 cfg1.N = Cert.ReferenceIdeal.Read.val_main_v50 (F := Ideal) x0 x1 x2 x3 x4 x5 := by
  rw [arr1_reluDense V c, hA, hb, hW]
  exact (ref_reluDense x0 x1 x2 x3 x4 x5).symm

end Cert.KernelIdeal.RegionValue

end
-- ==== Proof.LibKeepdims.lean ====
/-
  Column ("keepdims") layouts read at an index, and a row sum read at an index, generic in the sizes.

  A row-wise reduction that keeps its axis produces an `[a]` vector viewed as an `[a, 1]` column; the column is then
  viewed as a `[1, a]` row, or spread over the columns of an `[a, b]` matrix.  Each of these reads ONE entry of
  its operand at each index of its result:
    · `[a] → [a, 1]` at (i, u) reads the operand at i;
    · `[a, 1] → [1, a]` at (u, i) reads the operand at (i, 0);
    · `[a, 1] → [a, b]` (a broadcast) at (i, j) reads the operand at (i, 0);
  and a sum of an `[a, b]` matrix along its second axis, read at i over the extended reals, is the sum over the b
  columns of the entries of row i.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the operand at `(i, 0)`: both have row-major
    position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of an `[a, b]` matrix along its second axis, read at `i`, is the sum over the `b`
    columns of row `i`'s entries (the accumulator word being the sum's neutral element). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun d => Fin.ext (by
      match d with
      | ⟨0, _⟩ => rfl
      | ⟨1, _⟩ => rfl)))

end Cert.LibKeepdims

end
-- ==== Proof.Region2.lean ====
import proofs.«136380_j24721831756229_1_alg».proof.Proof.Gen.KernelIdeal.Frame
import proofs.«136380_j24721831756229_1_alg».proof.Proof.RefRead
import proofs.«136380_j24721831756229_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.SL.Sem

/-! # Region 2: the bias and the row-wise log-softmax

Both the kernel's body on a block of 2000 rows and the reference's stage on the whole array are, at row `r` and column `q`,
the same expression of the 40 biased logits `z k = Z (r, k) + bias k` of the row: `(z q − M) − log (∑ k, exp (z k − M))` with
`M` the fold of `max` from `−∞` over the row. The kernel's side is read off its payload entry by entry, the reference's off
its stage functions; the blocks of the 50 grid points tile the array's rows. -/

namespace LogSoftmax

open Idealize.ShloMosaic.ValueIdx
open Idealize.ShloMosaic.Pipeline (Dat)

/-! ## The kernel's payload at an index -/

/-- The log-softmax of one row of 40 extended reals, read at column `q`: the entry less the row's maximum, less the
    logarithm of the sum of the exponentials of the row's entries less the maximum. -/
def rowLogSoftmax (z : Fin 40 → EReal) (q : Fin 40) : EReal :=
  (z q - (Finset.univ : Finset (Fin 40)).fold max ⊥ z)
    - Ideal.log (∑ k : Fin 40, Ideal.exp (z k - (Finset.univ : Finset (Fin 40)).fold max ⊥ z))

/-- The extended reals' value of the word `0xFF800000` is `−∞`, the bottom of the order. -/
theorem ofBits_negInf : Ideal.ofBits .f32 0xFF800000#32 = ⊥ := by simp [Ideal.ofBits, Ideal.ieee]

/-- The exponential of a vector reads entry by entry. -/
theorem exp_at {s : Shape} {φ : FTy} (v : FVec Ideal s φ) (i : s.Idx) : Idealize.ShloMosaic.exp v i = Ideal.exp (v i) := rfl
/-- The logarithm of a vector reads entry by entry. -/
theorem log_at {s : Shape} {φ : FTy} (v : FVec Ideal s φ) (i : s.Idx) : Idealize.ShloMosaic.log v i = Ideal.log (v i) := rfl

/-- A `[1, 40]` row spread over the 2000 rows of a `[2000, 40]` matrix reads, at `(p, q)`, the row's entry `q`. -/
theorem rowBroadcast_at {α : Type} (v : S1x40.Idx → α) (h : S1x40.Broadcasts S2000x40) (p : Fin 2000) (q : Fin 40) :
    broadcastTo S2000x40 v h (ix2 p q) = v (ix2 (0 : Fin 1) q) := by
  refine broadcastTo_apply v h (ix2 p q) (ix2 (0 : Fin 1) q) fun ax => ?_
  match ax with
  | ⟨0, _⟩ => rfl
  | ⟨1, _⟩ => rfl

/-- The maximum of a `[2000, 40]` matrix along its rows, read at row `p`: the fold of `max` from `−∞` over the 40 entries of
    the row. -/
theorem rowMax_at (z : FVec Ideal S2000x40 .f32) (h : S2000x40.Reduces [1] S2000) (hφ : FKind.Formats .f32)
    (hacc : (0xFF800000#32 : BitVec 32) = 0xFF800000#32) (p : Fin 2000) :
    multiReduction .maximumf [1] S2000 z 0xFF800000#32 h hφ hacc (ix1 p)
      = (Finset.univ : Finset (Fin 40)).fold max ⊥ (fun k => z (ix2 p k)) := by
  refine (Ideal.multiReduction_maximumf_single z 0xFF800000#32 h hφ hacc (ix1 p)).trans ?_
  rw [Ideal.ofBits_def, ofBits_negInf]
  exact congrArg (Finset.fold max ⊥ · (Finset.univ : Finset (Fin 40)))
    (funext fun k => congrArg z (funext fun d => Fin.ext (by
      match d with
      | ⟨0, _⟩ => rfl
      | ⟨1, _⟩ => rfl)))

/-- The sum of a `[2000, 40]` matrix along its rows, read at row `p`: the sum of the 40 entries of the row. -/
theorem rowSum_at (z : FVec Ideal S2000x40 .f32) (h : S2000x40.Reduces [1] S2000) (hφ : FKind.Formats .f32)
    (hacc : (0x00000000#32 : BitVec 32) = 0x00000000#32) (p : Fin 2000) :
    multiReduction .add [1] S2000 z 0x00000000#32 h hφ hacc (ix1 p) = ∑ k : Fin 40, z (ix2 p k) :=
  Cert.LibKeepdims.rowSum_apply z 0x00000000#32 h hφ hacc p

/-- The chain "less the row maximum, less the logarithm of the row sum of exponentials" on a `[2000, 40]` matrix `z`, read at
    `(p, q)`, is the log-softmax of row `p` at column `q`. -/
theorem logSoftmax_at (z : FVec Ideal S2000x40 .f32) (h : S2000x40.Reduces [1] S2000) (hφ : FKind.Formats .f32)
    (hmax : (0xFF800000#32 : BitVec 32) = 0xFF800000#32) (hadd : (0x00000000#32 : BitVec 32) = 0x00000000#32)
    (hc : S2000.ShapeCasts S2000x1) (hb : S2000x1.Broadcasts S2000x40) (p : Fin 2000) (q : Fin 40) :
    subf
      (subf z (broadcastTo S2000x40 (shapeCast S2000x1 (multiReduction .maximumf [1] S2000 z 0xFF800000#32 h hφ hmax) hc) hb))
      (broadcastTo S2000x40
        (log (shapeCast S2000x1
          (multiReduction .add [1] S2000
            (exp (subf z (broadcastTo S2000x40 (shapeCast S2000x1 (multiReduction .maximumf [1] S2000 z 0xFF800000#32 h hφ hmax) hc) hb)))
            0x00000000#32 h hφ hadd) hc)) hb)
      (ix2 p q)
    = rowLogSoftmax (fun k => z (ix2 p k)) q := by
  have hM : ∀ k : Fin 40, (broadcastTo S2000x40 (shapeCast S2000x1 (multiReduction .maximumf [1] S2000 z 0xFF800000#32 h hφ hmax) hc) hb) (ix2 p k)
      = (Finset.univ : Finset (Fin 40)).fold max ⊥ (fun k => z (ix2 p k)) := fun k => by
    rw [Cert.LibKeepdims.broadcastTo_a1_ab_apply, Cert.LibKeepdims.shapeCast_a_a1_apply, rowMax_at z h hφ hmax p]
  rw [subf_apply, subf_apply, hM, Cert.LibKeepdims.broadcastTo_a1_ab_apply, log_at, Cert.LibKeepdims.shapeCast_a_a1_apply,
    rowSum_at _ h hφ hadd p]
  unfold rowLogSoftmax
  refine congrArg (fun s => _ - Ideal.log s) (Finset.sum_congr rfl fun k _ => ?_)
  rw [exp_at, subf_apply, hM]

theorem pay_at (x0 : Vec Ideal S2000x40 .f32) (x1 : Vec Ideal S1x40 .f32) (p : Fin 2000) (q : Fin 40) :
    k2_pay1 (F := Ideal) x0 x1 (ix2 p q) = rowLogSoftmax (fun k => x0 (ix2 p k) + x1 (ix2 (0 : Fin 1) k)) q := by
  unfold k2_pay1
  dsimp only
  rw [shapeCast_self, shapeCast_self, logSoftmax_at]
  refine congrArg (rowLogSoftmax · q) (funext fun k => ?_)
  rw [addf_apply, rowBroadcast_at]

section Reference

open Cert.ReferenceIdeal.Read

variable (x0 : (⟨S100000x256, .f32⟩ : BufTy).Contents (Elt Ideal)) (x1 : (⟨S2x3200000, .i32⟩ : BufTy).Contents (Elt Ideal)) (x2 : (⟨S3200000, .f32⟩ : BufTy).Contents (Elt Ideal)) (x3 : (⟨S256x16, .f32⟩ : BufTy).Contents (Elt Ideal))
    (x4 : (⟨S16, .f32⟩ : BufTy).Contents (Elt Ideal)) (x5 : (⟨S16x40, .f32⟩ : BufTy).Contents (Elt Ideal)) (x6 : (⟨S40, .f32⟩ : BufTy).Contents (Elt Ideal))

/-- The reference's biased logits at `(r, k)`: the aggregated entry plus the bias's entry `k`. -/
theorem ref_logit_at (r : Fin 100000) (k : Fin 40) :
    val_main_v66 (F := Ideal) x0 x1 x2 x3 x4 x5 x6 (ix2 r k)
      = val_main_v63 (F := Ideal) x0 x1 x2 x3 x4 x5 (ix2 r k) + x6 (ix1 k) := by
  have e : idx_main_v64 (idx_main_v65 (ix2 r k)) = ix1 k :=
    funext fun a => Fin.ext (by match a with | ⟨0, _⟩ => rfl)
  rw [val_main_v66_apply, val_main_v65_apply, val_main_v64_apply, e, Ideal.addf_def]

/-- The reference's row maximum at `r`: the fold of `max` from `−∞` over the 40 biased logits of the row. -/
theorem ref_rowMax_at (r : Fin 100000) :
    val_main_call2_v0 (F := Ideal) x0 x1 x2 x3 x4 x5 x6 (ix1 r)
      = (Finset.univ : Finset (Fin 40)).fold max ⊥ (fun k => val_main_v66 (F := Ideal) x0 x1 x2 x3 x4 x5 x6 (ix2 r k)) := by
  unfold val_main_call2_v0
  generalize val_main_v66 (F := Ideal) x0 x1 x2 x3 x4 x5 x6 = y
  have hred : Cert.ReferenceIdeal.S100000x40.Reduces [1] Cert.ReferenceIdeal.S100000 := by decide
  refine (Host.reduce_eq_fold_single (FloatOps.maximumf (F := Ideal) (φ := .f32)) y (val_main_call2_cst (F := Ideal))
    Cert.ReferenceIdeal.Facts₀.reducesTo_S100000x40_S100000_d1 hred Cert.ReferenceIdeal.Facts₀.h_S_ (ix1 r)).trans ?_
  rw [val_main_call2_cst_apply, Ideal.ofBits_def, ofBits_negInf]
  have hl : ∀ k : Fin 40, hred.lift (ix1 r) k = ix2 r k := fun k => funext fun d => Fin.ext (by
    match d with
    | ⟨0, _⟩ => rfl
    | ⟨1, _⟩ => rfl)
  show Finset.fold max ⊥ (fun k : Fin 40 => y (hred.lift (ix1 r) k)) Finset.univ = _
  simp only [hl]

/-- The reference's row maximum as it is used, spread over the row: its extra `max` with `−∞` changes nothing. -/
theorem ref_rowMaxB_at (r : Fin 100000) (k : Fin 40) :
    val_main_call2_v4 (F := Ideal) x0 x1 x2 x3 x4 x5 x6 (ix2 r k)
      = (Finset.univ : Finset (Fin 40)).fold max ⊥ (fun k => val_main_v66 (F := Ideal) x0 x1 x2 x3 x4 x5 x6 (ix2 r k)) := by
  have e : idx_main_call2_v3 (idx_main_call2_v4 (ix2 r k)) = ix1 r :=
    funext fun a => Fin.ext (by match a with | ⟨0, _⟩ => rfl)
  rw [val_main_call2_v4_apply, val_main_call2_v3_apply, e, val_main_call2_v2_apply, val_main_call2_v1_apply,
    val_main_call2_cst_0_apply, Ideal.ofBits_def, ofBits_negInf, Ideal.maximumf_def, max_bot_left, ref_rowMax_at]

/-- The reference's shifted logits at `(r, k)`. -/
theorem ref_shift_at (r : Fin 100000) (k : Fin 40) :
    val_main_call2_v5 (F := Ideal) x0 x1 x2 x3 x4 x5 x6 (ix2 r k)
      = val_main_v66 (F := Ideal) x0 x1 x2 x3 x4 x5 x6 (ix2 r k)
        - (Finset.univ : Finset (Fin 40)).fold max ⊥ (fun k => val_main_v66 (F := Ideal) x0 x1 x2 x3 x4 x5 x6 (ix2 r k)) := by
  rw [val_main_call2_v5_apply, ref_rowMaxB_at, Ideal.subf_def]

/-- The reference's logarithm of the row sum of exponentials, spread over the row. -/
theorem ref_logSum_at (r : Fin 100000) (q : Fin 40) :
    val_main_call2_v10 (F := Ideal) x0 x1 x2 x3 x4 x5 x6 (ix2 r q)
      = Ideal.log (∑ k : Fin 40, Ideal.exp (val_main_call2_v5 (F := Ideal) x0 x1 x2 x3 x4 x5 x6 (ix2 r k))) := by
  have e : idx_main_call2_v8 (idx_main_call2_v10 (ix2 r q)) = ix1 r :=
    funext fun a => Fin.ext (by match a with | ⟨0, _⟩ => rfl)
  have e7 : ∀ k : Fin 40, idx_main_call2_v7 (ix1 r) k = ix2 r k := fun k =>
    funext fun a => Fin.ext (by match a with | ⟨0, _⟩ => rfl | ⟨1, _⟩ => rfl)
  rw [val_main_call2_v10_apply, val_main_call2_v9_apply, val_main_call2_v8_apply, e, val_main_call2_v7_apply,
    val_main_call2_cst_1_apply, Ideal.ofBits_def, Ideal.ofBits_zero_f32, zero_add, Ideal.hostUnary_log_def]
  refine congrArg Ideal.log (Finset.sum_congr rfl fun k _ => ?_)
  rw [e7, val_main_call2_v6_apply, Ideal.hostUnary_exp_def]

/-- The reference's stage at `(r, q)` is the log-softmax of row `r` of the biased aggregate at column `q`. -/
theorem ref_at (r : Fin 100000) (q : Fin 40) :
    val_main_v67 (F := Ideal) x0 x1 x2 x3 x4 x5 x6 (ix2 r q)
      = rowLogSoftmax (fun k => val_main_v63 (F := Ideal) x0 x1 x2 x3 x4 x5 (ix2 r k) + x6 (ix1 k)) q := by
  rw [val_main_v67_apply, ref_logSum_at, Ideal.subf_def]
  simp only [ref_shift_at, ref_logit_at]
  rfl

end Reference

/-! ## From the blocks to the array -/

/-- A `[b]` array viewed as the row `[1, b]` reads, at `(u, k)`, the operand at `k`: both have row-major position `k`. -/
theorem shapeCast_b_1b_apply {α : Type} {b : ℕ} (x : (⟨1, ![b]⟩ : Shape).Idx → α) (h : (⟨1, ![b]⟩ : Shape).ShapeCasts ⟨2, ![1, b]⟩)
    (u : Fin 1) (k : Fin b) : shapeCast ⟨2, ![1, b]⟩ x h (ix2 u k) = x (ix1 k) :=
  shapeCast_apply x h _ _ (by
    have hu : u.val = 0 := by omega
    rw [Shape.rowMajor_val_two, Shape.rowMajor_val_one]
    show k.val = u.val * b + k.val
    rw [hu, Nat.zero_mul, Nat.zero_add])

/-- A payload block that is, entry by entry, the log-softmax of the rows of the first input block plus the second's one row. -/
theorem pay_eq_of_rows (X0 : Vec Ideal S2000x40 .f32) (X1 : Vec Ideal S1x40 .f32) (Gb : Vec Ideal S2000x40 .f32)
    (h : ∀ (p : Fin 2000) (q : Fin 40), Gb (ix2 p q) = rowLogSoftmax (fun k => X0 (ix2 p k) + X1 (ix2 (0 : Fin 1) k)) q) :
    k2_pay1 (F := Ideal) X0 X1 = Gb :=
  funext fun y => by
    obtain ⟨p, q, rfl⟩ : ∃ (p : Fin 2000) (q : Fin 40), y = ix2 p q := ⟨y 0, y 1, eq_ix2 y⟩
    rw [pay_at, h]

theorem zeroOffsets : (![0, 0] : Fin 2 → Nat) = fun _ => 0 := funext fun a => by fin_cases a <;> rfl

/-- The printed index maps, decided over the 50 grid points: the logits' window and the output's window sit at row block
    `t`, column block 0; the bias's window at block (0, 0). -/
theorem blockIndex_facts : ∀ t : Fin cfg2.N, win2_0.index t (0 : Fin 2) = win2_2.index t (0 : Fin 2) + 0
    ∧ win2_0.index t (1 : Fin 2) = 0
    ∧ win2_1.index t (0 : Fin 2) = 0
    ∧ win2_1.index t (1 : Fin 2) = 0
    ∧ win2_2.index t (0 : Fin 2) ≤ 49
    ∧ win2_2.index t (1 : Fin 2) = 0 :=
  (by decide +kernel : ∀ t : Fin grid2.N, _)

/-- Every row block is some grid point's. -/
theorem blockIndex_onto : ∀ (q0 : Fin 50), ∃ t : Fin cfg2.N, win2_2.index t = ![q0.val + 0, 0] :=
  (by decide +kernel : ∀ (q0 : Fin 50), ∃ t : Fin grid2.N, win2_2.index t = ![q0.val + 0, 0])

/-- Block `n` of 2000 rows of a `[100000, 40]` array, `n` at most 49. -/
def rowBlock (G : (⟨S100000x40, .f32⟩ : BufTy).Contents (Elt Ideal)) (n : Nat) (hn : n ≤ 49) : Vec Ideal S2000x40 .f32 :=
  fun y => G (ix2 (⟨n * 2000 + (y 0).val, by have h : (y 0).val < 2000 := (y 0).isLt; omega⟩ : Fin 100000) (⟨(y 1).val, (y 1).isLt⟩ : Fin 40))

variable (V : (c : Dev nD) → (b : Ref sig .tc) → Buf (Elt Ideal) ((c : Thread nD τ).loc b)) (c : Dev nD)

/-- What grid point `t` writes back is block `t` of any array `G` that is, row by row, the log-softmax of the logits array
    `Z` plus the bias `b`, when the region finds `Z` and the bias's row at its two input arrays. -/
theorem flushed_eq (Z : (⟨S100000x40, .f32⟩ : BufTy).Contents (Elt Ideal)) (b : (⟨S40, .f32⟩ : BufTy).Contents (Elt Ideal))
    (G : (⟨S100000x40, .f32⟩ : BufTy).Contents (Elt Ideal))
    (hZ : V c main_v60 = Z) (hb : V c main_v61 = shapeCast S1x40 b shapeCasts_S40_S1x40)
    (hG : ∀ (r : Fin 100000) (q : Fin 40), G (ix2 r q) = rowLogSoftmax (fun k => Z (ix2 r k) + b (ix1 k)) q)
    (t : Fin cfg2.N) :
    (dat2 V c).flushed 2 t = ((cfg2.win 2).blk t).view.read (Elt Ideal) G := by
  show (cfg2.win 2).cut (grid2.coords t) ((dat2 V c).after 2 t) = _
  rw [after2_2]
  unfold out2_2
  rw [View.canon_unit_zero zeroOffsets]
  simp only [View.ld_unit_zero (S := S2000x40) zeroOffsets, View.ld_unit_zero (S := S1x40) zeroOffsets]
  obtain ⟨e0, e1, e2, e3, e4, e5⟩ := blockIndex_facts t
  have hpay : k2_pay1 (F := Ideal) (iblk2 V c 0 t) (iblk2 V c 1 t) = rowBlock G (win2_2.index t (0 : Fin 2)) e4 := by
    refine pay_eq_of_rows _ _ _ fun p q => ?_
    have hrow : win2_2.index t (0 : Fin 2) * 2000 + p.val < 100000 := by have := p.isLt; omega
    show G (ix2 (⟨win2_2.index t (0 : Fin 2) * 2000 + p.val, hrow⟩ : Fin 100000) (⟨q.val, q.isLt⟩ : Fin 40)) = _
    rw [hG]
    refine congrArg (rowLogSoftmax · q) (funext fun k => ?_)
    have h0 : iblk2 V c 0 t (ix2 p k) = Z (ix2 (⟨win2_2.index t (0 : Fin 2) * 2000 + p.val, hrow⟩ : Fin 100000) k) := by
      show V c main_v60 (((cfg2.win 0).blk t).view.emb (ix2 p k)) = _
      rw [hZ]
      refine congrArg Z (funext fun a => Fin.ext ?_)
      match a with
      | ⟨0, _⟩ => show win2_0.index t (0 : Fin 2) * 2000 + 1 * p.val = win2_2.index t (0 : Fin 2) * 2000 + p.val; omega
      | ⟨1, _⟩ => show win2_0.index t (1 : Fin 2) * 40 + 1 * k.val = k.val; omega
    have h1 : iblk2 V c 1 t (ix2 (0 : Fin 1) k) = b (ix1 k) := by
      show V c main_v61 (((cfg2.win 1).blk t).view.emb (ix2 (0 : Fin 1) k)) = _
      rw [hb]
      have he : ((cfg2.win 1).blk t).view.emb (ix2 (0 : Fin 1) k) = ix2 (0 : Fin 1) k := funext fun a => Fin.ext (by
        match a with
        | ⟨0, _⟩ => show win2_1.index t (0 : Fin 2) * 1 + 1 * 0 = 0; omega
        | ⟨1, _⟩ => show win2_1.index t (1 : Fin 2) * 40 + 1 * k.val = k.val; omega)
      rw [he, shapeCast_b_1b_apply]
    rw [h0, h1]
  rw [hpay]
  funext y
  show rowBlock G (win2_2.index t (0 : Fin 2)) e4 ((win2 2).xinj (grid2.coords t) y) = G (((cfg2.win 2).blk t).view.emb y)
  unfold rowBlock
  beta_reduce
  refine congrArg G (funext fun a => Fin.ext ?_)
  match a with
  | ⟨0, _⟩ => show win2_2.index t (0 : Fin 2) * 2000 + (y 0).val = win2_2.index t (0 : Fin 2) * 2000 + 1 * (y 0).val; omega
  | ⟨1, _⟩ => show (y 1).val = win2_2.index t (1 : Fin 2) * 40 + 1 * (y 1).val; omega

/-- An index of the output array is in point `t`'s block iff each coordinate is in the block's range on its axis. -/
theorem mem_blk (t : Fin cfg2.N) (i : S100000x40.Idx) :
    i ∈ ((cfg2.win 2).blk t).view.set ↔ ∀ a : Fin 2, win2_2.index t a * S2000x40.size a ≤ (i a).val ∧ (i a).val < win2_2.index t a * S2000x40.size a + S2000x40.size a := by
  show i ∈ ((View.whole main_v62).slice (win2_2.rect t)).set ↔ _
  rw [View.set_slice_whole, Rect.mem_set_unit]
  exact Iff.rfl

/-- Every index of the output array lies in the block of the grid point of its row block: row `r` in block `r / 2000`. -/
theorem covered (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ := blockIndex_onto ⟨(i 0).val / 2000, by omega⟩
  have q0 : win2_2.index t (0 : Fin 2) = (i 0).val / 2000 + 0 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 40 ≤ (i 1).val ∧ (i 1).val < win2_2.index t (1 : Fin 2) * 40 + 40; omega

/-- The output array after the 50 grid points is any such `G`. -/
theorem arr_eq (Z : (⟨S100000x40, .f32⟩ : BufTy).Contents (Elt Ideal)) (b : (⟨S40, .f32⟩ : BufTy).Contents (Elt Ideal))
    (G : (⟨S100000x40, .f32⟩ : BufTy).Contents (Elt Ideal))
    (hZ : V c main_v60 = Z) (hb : V c main_v61 = shapeCast S1x40 b shapeCasts_S40_S1x40)
    (hG : ∀ (r : Fin 100000) (q : Fin 40), G (ix2 r q) = rowLogSoftmax (fun k => Z (ix2 r k) + b (ix1 k)) q) :
    (dat2 V c).arrAt 2 cfg2.N = G :=
  (dat2 V c).arrAt_eq_of_cover 2 G (fun t _ => flushed_eq V c Z b G hZ hb hG t) covered

end LogSoftmax

variable (V : (c : Dev nD) → (b : Ref sig .tc) → Buf (Elt Ideal) ((c : Thread nD τ).loc b)) (c : Dev nD)

theorem arr2 (x0 : (⟨S100000x256, .f32⟩ : BufTy).Contents (Elt Ideal)) (x1 : (⟨S2x3200000, .i32⟩ : BufTy).Contents (Elt Ideal)) (x2 : (⟨S3200000, .f32⟩ : BufTy).Contents (Elt Ideal)) (x3 : (⟨S256x16, .f32⟩ : BufTy).Contents (Elt Ideal))
    (x4 : (⟨S16, .f32⟩ : BufTy).Contents (Elt Ideal)) (x5 : (⟨S16x40, .f32⟩ : BufTy).Contents (Elt Ideal)) (x6 : (⟨S40, .f32⟩ : BufTy).Contents (Elt Ideal))
    (hZ : V c main_v60 = Cert.ReferenceIdeal.Read.val_main_v63 (F := Ideal) x0 x1 x2 x3 x4 x5)
    (hb : V c main_v61 = shapeCast S1x40 x6 shapeCasts_S40_S1x40) :
    (dat2 V c).arrAt 2 cfg2.N = Cert.ReferenceIdeal.Read.val_main_v67 (F := Ideal) x0 x1 x2 x3 x4 x5 x6 := by
  exact LogSoftmax.arr_eq V c (Cert.ReferenceIdeal.Read.val_main_v63 (F := Ideal) x0 x1 x2 x3 x4 x5) x6
    (Cert.ReferenceIdeal.Read.val_main_v67 (F := Ideal) x0 x1 x2 x3 x4 x5 x6) hZ hb
    (fun r q => LogSoftmax.ref_at x0 x1 x2 x3 x4 x5 x6 r q)

end Cert.KernelIdeal.RegionValue

end
-- ==== Proof.Fold.lean ====
/-
  The kernel program's result array, as one function of the argument arrays. The run's last segment boundary holds, at
  the result buffer, what the third region's write-backs leave; walking the boundaries back: the third region turns the
  second aggregate plus its bias row into row-wise log-softmax; the stretch before it computes that aggregate from the
  second region's output, which is the clamped first aggregate plus bias times the second weight matrix; the stretch
  before that computes the first aggregate from the first region's output, the features times the first weight matrix;
  and the stretches before the first region compute the self-looped edge lists and the normalisation from the edge
  arguments. Each of these is the reference's stage of the same arguments, so the result is the reference's last stage.
-/
import proofs.«136380_j24721831756229_1_alg».proof.Proof.Gen.KernelIdeal.Frame
import proofs.«136380_j24721831756229_1_alg».proof.Proof.HostChain
import proofs.«136380_j24721831756229_1_alg».proof.Proof.Region0
import proofs.«136380_j24721831756229_1_alg».proof.Proof.Region1
import proofs.«136380_j24721831756229_1_alg».proof.Proof.Region2

set_option maxRecDepth 16384

noncomputable section

namespace Cert.KernelIdeal.ResultValue

open Cert.KernelIdeal Cert.KernelIdeal.Gen Cert.ReferenceIdeal.Read
open Idealize.ShloMosaic Idealize.ShloMosaic.TcCoe Idealize.ShloMosaic.StableHlo Idealize.SL.Sem

variable (m : (ℓ : Loc nD τ sig) → Buf (Elt Ideal) ℓ) (ρ : Dev nD → PrngReg)

/-- The result buffer at the last segment boundary is the reference's last stage of the launch contents of the
    argument arrays. -/
theorem result_eq (c : Dev nD) :
    W8 m ρ c (Proc.devRef .tc main_v62)
      = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  -- at the first region's entry
  have s3 : W3 m ρ c (Proc.devRef .tc main_v3) = val_main_v3 (F := Ideal) (m ((c : Thread nD τ).loc main_arg1)) := HostChain.pre_src (W0 m ρ c)
  have d3 : W3 m ρ c (Proc.devRef .tc main_v6) = val_main_v6 (F := Ideal) (m ((c : Thread nD τ).loc main_arg1)) := HostChain.pre_dst (W0 m ρ c)
  have n3 : W3 m ρ c (Proc.devRef .tc main_v31) = val_main_v31 (F := Ideal) (m ((c : Thread nD τ).loc main_arg1)) (m ((c : Thread nD τ).loc main_arg2)) := HostChain.pre_norm (W0 m ρ c)
  have a03 : W3 m ρ c (Proc.devRef .tc main_arg0) = (m ((c : Thread nD τ).loc main_arg0)) := HostChain.pre_arg0 (W0 m ρ c)
  have a33 : W3 m ρ c (Proc.devRef .tc main_arg3) = (m ((c : Thread nD τ).loc main_arg3)) := HostChain.pre_arg3 (W0 m ρ c)
  have a43 : W3 m ρ c (Proc.devRef .tc main_arg4) = (m ((c : Thread nD τ).loc main_arg4)) := HostChain.pre_arg4 (W0 m ρ c)
  have a53 : W3 m ρ c (Proc.devRef .tc main_arg5) = (m ((c : Thread nD τ).loc main_arg5)) := HostChain.pre_arg5 (W0 m ρ c)
  have a63 : W3 m ρ c (Proc.devRef .tc main_arg6) = (m ((c : Thread nD τ).loc main_arg6)) := HostChain.pre_arg6 (W0 m ρ c)
  -- at the first region's exit
  have h4 : W4 m ρ c (Proc.devRef .tc main_v32) = val_main_v32 (F := Ideal) (m ((c : Thread nD τ).loc main_arg0)) (m ((c : Thread nD τ).loc main_arg3)) :=
    (W4_arr m ρ c 2).trans (RegionValue.arr0 (V3 m ρ) c _ _ a03 a33)
  have s4 : W4 m ρ c (Proc.devRef .tc main_v3) = _ := (W4_of_ne m ρ c main_v3 (by decide)).trans s3
  have d4 : W4 m ρ c (Proc.devRef .tc main_v6) = _ := (W4_of_ne m ρ c main_v6 (by decide)).trans d3
  have n4 : W4 m ρ c (Proc.devRef .tc main_v31) = _ := (W4_of_ne m ρ c main_v31 (by decide)).trans n3
  have a44 : W4 m ρ c (Proc.devRef .tc main_arg4) = _ := (W4_of_ne m ρ c main_arg4 (by decide)).trans a43
  have a54 : W4 m ρ c (Proc.devRef .tc main_arg5) = _ := (W4_of_ne m ρ c main_arg5 (by decide)).trans a53
  have a64 : W4 m ρ c (Proc.devRef .tc main_arg6) = _ := (W4_of_ne m ρ c main_arg6 (by decide)).trans a63
  -- at the second region's entry
  have g5 : W5 m ρ c (Proc.devRef .tc main_v45) = val_main_v45 (F := Ideal) (m ((c : Thread nD τ).loc main_arg0)) (m ((c : Thread nD τ).loc main_arg1)) (m ((c : Thread nD τ).loc main_arg2)) (m ((c : Thread nD τ).loc main_arg3)) :=
    HostChain.mid1_agg (W4 m ρ c) _ _ _ _ s4 d4 n4 h4
  have b5 : W5 m ρ c (Proc.devRef .tc main_v46) = shapeCast S1x16 (m ((c : Thread nD τ).loc main_arg4)) shapeCasts_S16_S1x16 :=
    (HostChain.mid1_bias (W4 m ρ c)).trans (by rw [a44])
  have s5 : W5 m ρ c (Proc.devRef .tc main_v3) = _ := (HostChain.mid1_src (W4 m ρ c)).trans s4
  have d5 : W5 m ρ c (Proc.devRef .tc main_v6) = _ := (HostChain.mid1_dst (W4 m ρ c)).trans d4
  have n5 : W5 m ρ c (Proc.devRef .tc main_v31) = _ := (HostChain.mid1_norm (W4 m ρ c)).trans n4
  have a55 : W5 m ρ c (Proc.devRef .tc main_arg5) = _ := (HostChain.mid1_arg5 (W4 m ρ c)).trans a54
  have a65 : W5 m ρ c (Proc.devRef .tc main_arg6) = _ := (HostChain.mid1_arg6 (W4 m ρ c)).trans a64
  -- at the second region's exit
  have h6 : W6 m ρ c (Proc.devRef .tc main_v47) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
    (W6_arr m ρ c 3).trans (RegionValue.arr1 (V5 m ρ) c _ _ _ _ _ _ g5 b5 a55)
  have s6 : W6 m ρ c (Proc.devRef .tc main_v3) = _ := (W6_of_ne m ρ c main_v3 (by decide)).trans s5
  have d6 : W6 m ρ c (Proc.devRef .tc main_v6) = _ := (W6_of_ne m ρ c main_v6 (by decide)).trans d5
  have n6 : W6 m ρ c (Proc.devRef .tc main_v31) = _ := (W6_of_ne m ρ c main_v31 (by decide)).trans n5
  have a66 : W6 m ρ c (Proc.devRef .tc main_arg6) = _ := (W6_of_ne m ρ c main_arg6 (by decide)).trans a65
  -- at the third region's entry
  have g7 : W7 m ρ c (Proc.devRef .tc main_v60) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
    HostChain.mid2_agg (W6 m ρ c) _ _ _ _ _ _ s6 d6 n6 h6
  have b7 : W7 m ρ c (Proc.devRef .tc main_v61) = shapeCast S1x40 (m ((c : Thread nD τ).loc main_arg6)) shapeCasts_S40_S1x40 :=
    (HostChain.mid2_bias (W6 m ρ c)).trans (by rw [a66])
  -- the third region
  exact (W8_arr m ρ c 2).trans (RegionValue.arr2 (V7 m ρ) c _ _ _ _ _ _ _ g7 b7)

end Cert.KernelIdeal.ResultValue

end
-- ==== Proof.lean ====
/-
  The certificate of a two-layer graph convolution with row-wise log-softmax: three row-blocked kernels
  (features times the first weight matrix; the clamped first aggregate plus bias times the second weight matrix; the
  second aggregate plus bias through log-softmax) among host gathers and scatter-adds, against the plain array
  reference. At the extended reals the two programs are the same tree of operations: the normalisation and the two
  propagation steps are printed alike on both sides; a product on the matrix unit into a zero accumulator, block of
  rows by block of rows, is the host's whole product read at those rows (one sum over the contracted axis, no
  regrouping); a bias added inside a kernel is the host's broadcast bias added to the whole array; a row's maximum and
  its sum of exponentials depend on that row only, so taking them block by block is taking them over the whole array,
  and the reference's one extra maximum with minus infinity changes nothing. No step regroups a sum or moves a factor,
  so the precondition's finiteness is never used.
  The frames of the two kernel programs are the generated ones; the reference's frame is its run (read stage by stage) with the
  result dropped; the idealization rewrote nothing, so its preservation claim is trivial.
-/
import proofs.«136380_j24721831756229_1_alg».proof.Defs
import proofs.«136380_j24721831756229_1_alg».proof.Proof.Gen.Kernel
import proofs.«136380_j24721831756229_1_alg».proof.Proof.Gen.Kernel.Skeleton
import proofs.«136380_j24721831756229_1_alg».proof.Proof.Gen.Kernel.Launch
import proofs.«136380_j24721831756229_1_alg».proof.Proof.Gen.Kernel.Points
import proofs.«136380_j24721831756229_1_alg».proof.Proof.Gen.Kernel.Frame
import proofs.«136380_j24721831756229_1_alg».proof.Proof.Gen.KernelIdeal
import proofs.«136380_j24721831756229_1_alg».proof.Proof.Gen.KernelIdeal.Skeleton
import proofs.«136380_j24721831756229_1_alg».proof.Proof.Gen.KernelIdeal.Launch
import proofs.«136380_j24721831756229_1_alg».proof.Proof.Gen.KernelIdeal.Points
import proofs.«136380_j24721831756229_1_alg».proof.Proof.Gen.KernelIdeal.Frame
import proofs.«136380_j24721831756229_1_alg».proof.Proof.Gen.ReferenceIdeal
import proofs.«136380_j24721831756229_1_alg».proof.Proof.Gen.Pre_finite_inputs
import proofs.«136380_j24721831756229_1_alg».proof.Proof.RefStages
import proofs.«136380_j24721831756229_1_alg».proof.Proof.KRun
import proofs.«136380_j24721831756229_1_alg».proof.Proof.Fold
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Stages.run (F := Ideal) m ρ)

/-- Both programs end with the reference's last stage of the (agreeing) argument arrays in their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.ResultValue.result_eq m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Stages.run (F := Ideal) m' ρ')
    rw [(hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
